-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x128 : Shape := ⟨3, ![64, 64, 128]⟩
abbrev S64x64x63 : Shape := ⟨3, ![64, 64, 63]⟩
abbrev S64x64x63x128 : Shape := ⟨4, ![64, 64, 63, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S64x64x128 : S_.BroadcastsInDim S64x64x128 (![] : Fin 0 → Fin S64x64x128.rank)
  reducesTo_S64x64x128_S_d0_1_2 : S64x64x128.ReducesTo [0, 1, 2] S_
  h_S_ : 0 < S_.numel
  bcast_S_S64x64x63x128 : S_.BroadcastsInDim S64x64x63x128 (![] : Fin 0 → Fin S64x64x63x128.rank)
  reducesTo_S64x64x63x128_S_d0_1_2_3 : S64x64x63x128.ReducesTo [0, 1, 2, 3] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S64x64x128 .f32) (main_arg1 : IVec S64x64x63 32) (main_arg2 : FVec F S64x64x63x128 .f32) (main_arg3 : FVec F S384x256 .f32) (main_arg4 : FVec F S256 .f32) (main_arg5 : FVec F S256x128 .f32) (main_arg6 : FVec F S128 .f32) : IVec S_ 1 :=
  let main_v0 : FVec F S64x64x128 .f32 := Host.absf main_arg0
  let main_cst : FVec F S_ .f32 := constant S_ .f32 0x7F800000#32
  let main_v1 : FVec F S64x64x128 .f32 := broadcastInDim S64x64x128 ![] bcast_S_S64x64x128 main_cst
  let main_v2 : IVec S64x64x128 1 := cmpf .olt main_v0 main_v1
  let main_c : IVec S_ 1 := constantI S_ 1 1#1
  let main_v3 : IVec S_ 1 := (fun x v => Host.reduce IntOp.andi x v reducesTo_S64x64x128_S_d0_1_2 h_S_) main_v2 main_c
  let main_v4 : FVec F S64x64x63x128 .f32 := Host.absf main_arg2
  let main_cst_0 : FVec F S_ .f32 := constant S_ .f32 0x7F800000#32
  let main_v5 : FVec F S64x64x63x128 .f32 := broadcastInDim S64x64x63x128 ![] bcast_S_S64x64x63x128 main_cst_0
  let main_v6 : IVec S64x64x63x128 1 := cmpf .olt main_v4 main_v5
  let main_c_1 : IVec S_ 1 := constantI S_ 1 1#1
  let main_v7 : IVec S_ 1 := (fun x v => Host.reduce IntOp.andi x v reducesTo_S64x64x63x128_S_d0_1_2_3 h_S_) main_v6 main_c_1
  let main_v8 : IVec S_ 1 := andi main_v3 main_v7
  let main_v9 : FVec F S384x256 .f32 := Host.absf main_arg3
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S64x64x128 : Shape := ⟨3, ![64, 64, 128]⟩
abbrev S64x64x63 : Shape := ⟨3, ![64, 64, 63]⟩
abbrev S64x64x63x128 : Shape := ⟨4, ![64, 64, 63, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S64x4032x128 : Shape := ⟨3, ![64, 4032, 128]⟩
abbrev S_ : Shape := ⟨0, ![]⟩
abbrev S64x4032x1 : Shape := ⟨3, ![64, 4032, 1]⟩
abbrev S64 : Shape := ⟨1, ![64]⟩
abbrev S64x63 : Shape := ⟨2, ![64, 63]⟩
abbrev S4032 : Shape := ⟨1, ![4032]⟩
abbrev S4032x1 : Shape := ⟨2, ![4032, 1]⟩
abbrev S1x4032x128 : Shape := ⟨3, ![1, 4032, 128]⟩
abbrev S1x4032x1 : Shape := ⟨3, ![1, 4032, 1]⟩
abbrev S1x64x128 : Shape := ⟨3, ![1, 64, 128]⟩
abbrev S1x64 : Shape := ⟨2, ![1, 64]⟩
abbrev S4032x64 : Shape := ⟨2, ![4032, 64]⟩
abbrev S64x128 : Shape := ⟨2, ![64, 128]⟩
abbrev S128x256 : Shape := ⟨2, ![128, 256]⟩
abbrev S64x256 : Shape := ⟨2, ![64, 256]⟩
abbrev S4032x128 : Shape := ⟨2, ![4032, 128]⟩
abbrev S4032x256 : Shape := ⟨2, ![4032, 256]⟩
abbrev S1x256 : Shape := ⟨2, ![1, 256]⟩
abbrev S1x128 : Shape := ⟨2, ![1, 128]⟩

abbrev nBuf : Space → Nat
  | .hbm => 32
  | .vmem => 13
  | .smem => 0
  | _ => 0

abbrev bufTy : (tb : Table) → Fin (tcTables nBuf tb) → BufTy
  | .hbm, ⟨0, _⟩ => ⟨S64x64x128, .f32⟩
  | .hbm, ⟨1, _⟩ => ⟨S64x64x63, .i32⟩
  | .hbm, ⟨2, _⟩ => ⟨S64x64x63x128, .f32⟩
  | .hbm, ⟨3, _⟩ => ⟨S384x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S64x4032x128, .f32⟩
  | .hbm, ⟨8, _⟩ => ⟨S_, .i32⟩
  | .hbm, ⟨9, _⟩ => ⟨S64x64x63, .i32⟩
  | .hbm, ⟨10, _⟩ => ⟨S64x64x63, .i1⟩
  | .hbm, ⟨11, _⟩ => ⟨S_, .i32⟩
  | .hbm, ⟨12, _⟩ => ⟨S64x64x63, .i32⟩
  | .hbm, ⟨13, _⟩ => ⟨S64x64x63, .i32⟩
  | .hbm, ⟨14, _⟩ => ⟨S64x64x63, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S64x64x63, .i32⟩
  | .hbm, ⟨19, _⟩ => ⟨S64x64x63, .i32⟩
  | .hbm, ⟨20, _⟩ => ⟨S_, .i32⟩
  | .hbm, ⟨21, _⟩ => ⟨S64x64x63, .i32⟩
  | .hbm, ⟨22, _⟩ => ⟨S64x64x63, .i32⟩
  | .hbm, ⟨23, _⟩ => ⟨S64x4032x1, .i32⟩
  | .hbm, ⟨24, _⟩ => ⟨S64, .i32⟩
  | .hbm, ⟨25, _⟩ => ⟨S64x63, .i32⟩
  | .hbm, ⟨26, _⟩ => ⟨S4032, .i32⟩
  | .hbm, ⟨27, _⟩ => ⟨S4032x1, .i32⟩
  | .hbm, ⟨28, _⟩ => ⟨S384x256, .bf16⟩
  | .hbm, ⟨29, _⟩ => ⟨S256x128, .bf16⟩
  | .hbm, ⟨30, _⟩ => ⟨S64x4032x128, .f32⟩
  | .hbm, ⟨31, _⟩ => ⟨S64x64x63x128, .f32⟩
  | .local _ .vmem, ⟨0, _⟩ => ⟨S1x4032x128, .f32⟩
  | .local _ .vmem, ⟨1, _⟩ => ⟨S1x4032x128, .f32⟩
  | .local _ .vmem, ⟨2, _⟩ => ⟨S1x4032x1, .i32⟩
  | .local _ .vmem, ⟨3, _⟩ => ⟨S1x4032x1, .i32⟩
  | .local _ .vmem, ⟨4, _⟩ => ⟨S4032x1, .i32⟩
  | .local _ .vmem, ⟨5, _⟩ => ⟨S1x64x128, .f32⟩
  | .local _ .vmem, ⟨6, _⟩ => ⟨S1x64x128, .f32⟩
  | .local _ .vmem, ⟨7, _⟩ => ⟨S384x256, .bf16⟩
  | .local _ .vmem, ⟨8, _⟩ => ⟨S256, .f32⟩
  | .local _ .vmem, ⟨9, _⟩ => ⟨S256x128, .bf16⟩
  | .local _ .vmem, ⟨10, _⟩ => ⟨S128, .f32⟩
  | .local _ .vmem, ⟨11, _⟩ => ⟨S1x4032x128, .f32⟩
  | .local _ .vmem, ⟨12, _⟩ => ⟨S1x4032x128, .f32⟩
  | _, _ => ⟨S64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4032x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4032x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4032x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4032x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64x64x63x128_S64x4032x128 : S64x64x63x128.ShapeCasts S64x4032x128
  bcast_S_S64x64x63 : S_.BroadcastsInDim S64x64x63 (![] : Fin 0 → Fin S64x64x63.rank)
  shapeCasts_S64x64x63_S64x4032x1 : S64x64x63.ShapeCasts S64x4032x1
  bcast_S64_S64x63_0 : S64.BroadcastsInDim S64x63 (![0] : Fin 1 → Fin S64x63.rank)
  shapeCasts_S64x63_S4032 : S64x63.ShapeCasts S4032
  shapeCasts_S4032_S4032x1 : S4032.ShapeCasts S4032x1
  bitsLt_bf16_f32 : FTy.bits .bf16 < FTy.bits .f32
  iota_S1x64_d1_w32 : S1x64.Iotas .tc 32 [1]
  inb_S1x4032x1_S1x4032x1_0_0_0 : ∀ a, (![0, 0, 0] : Fin 3 → Nat) a + S1x4032x1.size a ≤ S1x4032x1.size a
  h_S1x4032x1 : 0 < S1x4032x1.numel
  shapeCasts_S1x4032x1_S4032x1 : S1x4032x1.ShapeCasts S4032x1
  broadcasts_S4032x1_S4032x64 : S4032x1.Broadcasts S4032x64
  broadcasts_S1x64_S4032x64 : S1x64.Broadcasts S4032x64
  natLt_1_32 : 1 < 32
  inb_S4032x1_S4032x1_0_0 : ∀ a, (![0, 0] : Fin 2 → Nat) a + S4032x1.size a ≤ S4032x1.size a
  h_S4032x1 : 0 < S4032x1.numel
  shapeCasts_S4032x1_S4032x1 : S4032x1.ShapeCasts S4032x1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S384x256_S128x256_0_0 : ∀ a, (![0, 0] : Fin 2 → Nat) a + S128x256.size a ≤ S384x256.size a
  h_S128x256 : 0 < S128x256.numel
  shapeCasts_S128x256_S128x256 : S128x256.ShapeCasts S128x256
  inb_S384x256_S128x256_128_0 : ∀ a, (![128, 0] : Fin 2 → Nat) a + S128x256.size a ≤ S384x256.size a
  inb_S384x256_S128x256_256_0 : ∀ a, (![256, 0] : Fin 2 → Nat) a + S128x256.size a ≤ S384x256.size a
  inb_S1x4032x128_S1x4032x128_0_0_0 : ∀ a, (![0, 0, 0] : Fin 3 → Nat) a + S1x4032x128.size a ≤ S1x4032x128.size a
  h_S1x4032x128 : 0 < S1x4032x128.numel
  shapeCasts_S1x4032x128_S4032x128 : S1x4032x128.ShapeCasts S4032x128
  inb_S256_S256_0 : ∀ a, (![0] : Fin 1 → Nat) a + S256.size a ≤ S256.size a
  h_S256 : 0 < S256.numel
  shapeCasts_S256_S1x256 : S256.ShapeCasts S1x256
  broadcasts_S1x256_S4032x256 : S1x256.Broadcasts S4032x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4032x128 : S1x128.Broadcasts S4032x128
  shapeCasts_S4032x128_S1x4032x128 : S4032x128.ShapeCasts S1x4032x128
  shapeCasts_S64x4032x128_S64x64x63x128 : S64x4032x128.ShapeCasts S64x64x63x128
  dot_S64x128_S128x256_S64x256_1_0_0_1_n_n_wf : DotDims.WF S64x128 S128x256 S64x256 [1] [0] [0] [1] [] []
  dot_S4032x128_S128x256_S4032x256_1_0_0_1_n_n_wf : DotDims.WF S4032x128 S128x256 S4032x256 [1] [0] [0] [1] [] []
  dot_S4032x64_S64x256_S4032x256_1_0_0_1_n_n_wf : DotDims.WF S4032x64 S64x256 S4032x256 [1] [0] [0] [1] [] []
  dot_S4032x256_S256x128_S4032x128_1_0_0_1_n_n_wf : DotDims.WF S4032x256 S256x128 S4032x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4032x128.size a ≤ S64x4032x128.size a
  hwx0_0 : ∀ i : grid0.Coords, EltTy.bits .f32 = 32 ∨ (Rect.block (s := S64x4032x128) S1x4032x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4032x1.size a ≤ S64x4032x1.size a
  hwx0_1 : ∀ i : grid0.Coords, EltTy.bits .i32 = 32 ∨ (Rect.block (s := S64x4032x1) S1x4032x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4032x1.size a ≤ S4032x1.size a
  hwx0_2 : ∀ i : grid0.Coords, EltTy.bits .i32 = 32 ∨ (Rect.block (s := S4032x1) S4032x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x128.size a ≤ S64x64x128.size a
  hwx0_3 : ∀ i : grid0.Coords, EltTy.bits .f32 = 32 ∨ (Rect.block (s := S64x64x128) S1x64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x256.size a ≤ S384x256.size a
  hwx0_4 : ∀ i : grid0.Coords, EltTy.bits .bf16 = 32 ∨ (Rect.block (s := S384x256) S384x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .bf16 = 32 ∨ (Rect.block (s := S256x128) S256x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x4032x128.size a ≤ S64x4032x128.size a
  hwx0_8 : ∀ i : grid0.Coords, EltTy.bits .f32 = 32 ∨ (Rect.block (s := S64x4032x128) S1x4032x128.size (cc0_transform_8 i) (hinb0_8 i)).WholeWords (EltTy.packing .f32)

variable [Facts₀]

def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S4032x128_S128x256_S4032x256_1_0_0_1_n_n : DotDims S4032x128 S128x256 S4032x256 where
  lhsContracting := [1]
  rhsContracting := [0]
  lhsNonContracting := [0]
  rhsNonContracting := [1]
  lhsBatch := []
  rhsBatch := []
  wf := dot_S4032x128_S128x256_S4032x256_1_0_0_1_n_n_wf
def dot_S4032x64_S64x256_S4032x256_1_0_0_1_n_n : DotDims S4032x64 S64x256 S4032x256 where
  lhsContracting := [1]
  rhsContracting := [0]
  lhsNonContracting := [0]
  rhsNonContracting := [1]
  lhsBatch := []
  rhsBatch := []
  wf := dot_S4032x64_S64x256_S4032x256_1_0_0_1_n_n_wf
def dot_S4032x256_S256x128_S4032x128_1_0_0_1_n_n : DotDims S4032x256 S256x128 S4032x128 where
  lhsContracting := [1]
  rhsContracting := [0]
  lhsNonContracting := [0]
  rhsNonContracting := [1]
  lhsBatch := []
  rhsBatch := []
  wf := dot_S4032x256_S256x128_S4032x128_1_0_0_1_n_n_wf

abbrev win0_0 : Pipeline.Window sig grid0 :=
  Pipeline.Window.ofSpec (Memref.whole main_v0) S1x4032x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x4032x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4032x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S384x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x4032x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x64x128 : Shape := ⟨3, ![64, 64, 128]⟩
abbrev S64x64x63 : Shape := ⟨3, ![64, 64, 63]⟩
abbrev S64x64x63x128 : Shape := ⟨4, ![64, 64, 63, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S64 : Shape := ⟨1, ![64]⟩
abbrev S64x1x1 : Shape := ⟨3, ![64, 1, 1]⟩
abbrev S_ : Shape := ⟨0, ![]⟩
abbrev S64x64x63x1 : Shape := ⟨4, ![64, 64, 63, 1]⟩
abbrev S64x64x63x2 : Shape := ⟨4, ![64, 64, 63, 2]⟩
abbrev S64x64x1x128 : Shape := ⟨4, ![64, 64, 1, 128]⟩
abbrev S64x64x63x384 : Shape := ⟨4, ![64, 64, 63, 384]⟩
abbrev S64x64x63x256 : Shape := ⟨4, ![64, 64, 63, 256]⟩
abbrev S1x1x1x256 : Shape := ⟨4, ![1, 1, 1, 256]⟩
abbrev S1x1x1x128 : Shape := ⟨4, ![1, 1, 1, 128]⟩

abbrev nBuf : Space → Nat
  | .hbm => 73
  | .vmem => 0
  | .smem => 0
  | _ => 0

abbrev bufTy : (tb : Table) → Fin (tcTables nBuf tb) → BufTy
  | .hbm, ⟨0, _⟩ => ⟨S64x64x128, .f32⟩
  | .hbm, ⟨1, _⟩ => ⟨S64x64x63, .i32⟩
  | .hbm, ⟨2, _⟩ => ⟨S64x64x63x128, .f32⟩
  | .hbm, ⟨3, _⟩ => ⟨S384x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S64, .i32⟩
  | .hbm, ⟨8, _⟩ => ⟨S64x1x1, .i32⟩
  | .hbm, ⟨9, _⟩ => ⟨S_, .i32⟩
  | .hbm, ⟨10, _⟩ => ⟨S64x1x1, .i32⟩
  | .hbm, ⟨11, _⟩ => ⟨S64x1x1, .i1⟩
  | .hbm, ⟨12, _⟩ => ⟨S_, .i32⟩
  | .hbm, ⟨13, _⟩ => ⟨S64x1x1, .i32⟩
  | .hbm, ⟨14, _⟩ => ⟨S64x1x1, .i32⟩
  | .hbm, ⟨15, _⟩ => ⟨S64x1x1, .i32⟩
  | .hbm, ⟨16, _⟩ => ⟨S_, .i32⟩
  | .hbm, ⟨17, _⟩ => ⟨S64x64x63, .i32⟩
  | .hbm, ⟨18, _⟩ => ⟨S64x64x63, .i1⟩
  | .hbm, ⟨19, _⟩ => ⟨S_, .i32⟩
  | .hbm, ⟨20, _⟩ => ⟨S64x64x63, .i32⟩
  | .hbm, ⟨21, _⟩ => ⟨S64x64x63, .i32⟩
  | .hbm, ⟨22, _⟩ => ⟨S64x64x63, .i32⟩
  | .hbm, ⟨23, _⟩ => ⟨S64x64x63, .i32⟩
  | .hbm, ⟨24, _⟩ => ⟨S64x64x63x1, .i32⟩
  | .hbm, ⟨25, _⟩ => ⟨S64x64x63x1, .i32⟩
  | .hbm, ⟨26, _⟩ => ⟨S64x64x63x2, .i32⟩
  | .hbm, ⟨27, _⟩ => ⟨S64x64x63x128, .f32⟩
  | .hbm, ⟨28, _⟩ => ⟨S64x64x1x128, .f32⟩
  | .hbm, ⟨29, _⟩ => ⟨S64x64x63x128, .f32⟩
  | .hbm, ⟨30, _⟩ => ⟨S64x64x63x384, .f32⟩
  | .hbm, ⟨31, _⟩ => ⟨S64x64x63x256, .f32⟩
  | .hbm, ⟨32, _⟩ => ⟨S1x1x1x256, .f32⟩
  | .hbm, ⟨33, _⟩ => ⟨S64x64x63x256, .f32⟩
  | .hbm, ⟨34, _⟩ => ⟨S64x64x63x256, .f32⟩
  | .hbm, ⟨35, _⟩ => ⟨S_, .f32⟩
  | .hbm, ⟨36, _⟩ => ⟨S64x64x63x256, .f32⟩
  | .hbm, ⟨37, _⟩ => ⟨S64x64x63x256, .f32⟩
  | .hbm, ⟨38, _⟩ => ⟨S64x64x63x256, .f32⟩
  | .hbm, ⟨39, _⟩ => ⟨S64x64x63x256, .f32⟩
  | .hbm, ⟨40, _⟩ => ⟨S64x64x63x256, .i1⟩
  | .hbm, ⟨41, _⟩ => ⟨S64x64x63x256, .f32⟩
  | .hbm, ⟨42, _⟩ => ⟨S64x64x63x256, .f32⟩
  | .hbm, ⟨43, _⟩ => ⟨S64x64x63x256, .f32⟩
  | .hbm, ⟨44, _⟩ => ⟨S64x64x63x256, .f32⟩
  | .hbm, ⟨45, _⟩ => ⟨S64x64x63x256, .f32⟩
  | .hbm, ⟨46, _⟩ => ⟨S64x64x63x256, .f32⟩
  | .hbm, ⟨47, _⟩ => ⟨S64x64x63x256, .f32⟩
  | .hbm, ⟨48, _⟩ => ⟨S64x64x63x256, .f32⟩
  | .hbm, ⟨49, _⟩ => ⟨S_, .f32⟩
  | .hbm, ⟨50, _⟩ => ⟨S64x64x63x256, .f32⟩
  | .hbm, ⟨51, _⟩ => ⟨S64x64x63x256, .f32⟩
  | .hbm, ⟨52, _⟩ => ⟨S64x64x63x128, .f32⟩
  | .hbm, ⟨53, _⟩ => ⟨S1x1x1x128, .f32⟩
  | .hbm, ⟨54, _⟩ => ⟨S64x64x63x128, .f32⟩
  | .hbm, ⟨55, _⟩ => ⟨S64x64x63x128, .f32⟩
  | .hbm, ⟨56, _⟩ => ⟨S_, .f32⟩
  | .hbm, ⟨57, _⟩ => ⟨S64x64x63x128, .f32⟩
  | .hbm, ⟨58, _⟩ => ⟨S64x64x63x128, .f32⟩
  | .hbm, ⟨59, _⟩ => ⟨S64x64x63x128, .f32⟩
  | .hbm, ⟨60, _⟩ => ⟨S64x64x63x128, .f32⟩
  | .hbm, ⟨61, _⟩ => ⟨S64x64x63x128, .i1⟩
  | .hbm, ⟨62, _⟩ => ⟨S64x64x63x128, .f32⟩
  | .hbm, ⟨63, _⟩ => ⟨S64x64x63x128, .f32⟩
  | .hbm, ⟨64, _⟩ => ⟨S64x64x63x128, .f32⟩
  | .hbm, ⟨65, _⟩ => ⟨S64x64x63x128, .f32⟩
  | .hbm, ⟨66, _⟩ => ⟨S64x64x63x128, .f32⟩
  | .hbm, ⟨67, _⟩ => ⟨S64x64x63x128, .f32⟩
  | .hbm, ⟨68, _⟩ => ⟨S64x64x63x128, .f32⟩
  | .hbm, ⟨69, _⟩ => ⟨S64x64x63x128, .f32⟩
  | .hbm, ⟨70, _⟩ => ⟨S_, .f32⟩
  | .hbm, ⟨71, _⟩ => ⟨S64x64x63x128, .f32⟩
  | .hbm, ⟨72, _⟩ => ⟨S64x64x63x128, .f32⟩
  | _, _ => ⟨S64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_v31 : Ref sig .tc := ⟨.hbm, 69, rfl⟩
abbrev main_cst_3 : Ref sig .tc := ⟨.hbm, 70, rfl⟩
abbrev main_v32 : Ref sig .tc := ⟨.hbm, 71, rfl⟩
abbrev main_v33 : Ref sig .tc := ⟨.hbm, 72, rfl⟩

abbrev nD : Nat := 1
abbrev τ : Topo := Topo.v7x

variable {F : FTy → Type} [FloatOps F]

class Facts₀ : Prop where
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S_S64x64x63 : S_.BroadcastsInDim S64x64x63 (![] : Fin 0 → Fin S64x64x63.rank)
  bcast_S64x1x1_S64x64x63_0_1_2 : S64x1x1.BroadcastsInDim S64x64x63 (![0, 1, 2] : Fin 3 → Fin S64x64x63.rank)
  bcast_S64x64x63_S64x64x63x1_0_1_2 : S64x64x63.BroadcastsInDim S64x64x63x1 (![0, 1, 2] : Fin 3 → Fin S64x64x63x1.rank)
  concatenates_S64x64x63x1_S64x64x63x1_S64x64x63x2_d3 : Shape.Concatenates [S64x64x63x1, S64x64x63x1] S64x64x63x2 3
  bcast_S64x64x128_S64x64x1x128_0_1_3 : S64x64x128.BroadcastsInDim S64x64x1x128 (![0, 1, 3] : Fin 3 → Fin S64x64x1x128.rank)
  bcast_S64x64x1x128_S64x64x63x128_0_1_2_3 : S64x64x1x128.BroadcastsInDim S64x64x63x128 (![0, 1, 2, 3] : Fin 4 → Fin S64x64x63x128.rank)
  concatenates_S64x64x63x128_S64x64x63x128_S64x64x63x128_S64x64x63x384_d3 : Shape.Concatenates [S64x64x63x128, S64x64x63x128, S64x64x63x128] S64x64x63x384 3
  bcast_S256_S1x1x1x256_3 : S256.BroadcastsInDim S1x1x1x256 (![3] : Fin 1 → Fin S1x1x1x256.rank)
  bcast_S1x1x1x256_S64x64x63x256_0_1_2_3 : S1x1x1x256.BroadcastsInDim S64x64x63x256 (![0, 1, 2, 3] : Fin 4 → Fin S64x64x63x256.rank)
  bcast_S_S64x64x63x256 : S_.BroadcastsInDim S64x64x63x256 (![] : Fin 0 → Fin S64x64x63x256.rank)
  bcast_S128_S1x1x1x128_3 : S128.BroadcastsInDim S1x1x1x128 (![3] : Fin 1 → Fin S1x1x1x128.rank)
  bcast_S1x1x1x128_S64x64x63x128_0_1_2_3 : S1x1x1x128.BroadcastsInDim S64x64x63x128 (![0, 1, 2, 3] : Fin 4 → Fin S64x64x63x128.rank)
  bcast_S_S64x64x63x128 : S_.BroadcastsInDim S64x64x63x128 (![] : Fin 0 → Fin S64x64x63x128.rank)
  gather_S64x64x128_S64x64x63x2_S64x64x63x128_3_01_n_n_01_3_11128_wf : GatherDims.WF S64x64x128 S64x64x63x2 S64x64x63x128 [3] [0, 1] [] [0, 1] [] 3 ![1, 1, 128]
  dot_S64x64x63x384_S384x256_S64x64x63x256_3_0_012_1_n_n_wf : DotDims.WF S64x64x63x384 S384x256 S64x64x63x256 [3] [0] [0, 1, 2] [1] [] []
  dot_S64x64x63x256_S256x128_S64x64x63x128_3_0_012_1_n_n_wf : DotDims.WF S64x64x63x256 S256x128 S64x64x63x128 [3] [0] [0, 1, 2] [1] [] []

variable [Facts₀]

def gather_S64x64x128_S64x64x63x2_S64x64x63x128_3_01_n_n_01_3_11128 : GatherDims S64x64x128 S64x64x63x2 S64x64x63x128 where
  offsetDims := [3]
  collapsedSliceDims := [0, 1]
  operandBatchingDims := []
  startIndicesBatchingDims := []
  startIndexMap := [0, 1]
  indexVectorDim := 3
  sliceSizes := ![1, 1, 128]
  wf := gather_S64x64x128_S64x64x63x2_S64x64x63x128_3_01_n_n_01_3_11128_wf
def dot_S64x64x63x384_S384x256_S64x64x63x256_3_0_012_1_n_n : DotDims S64x64x63x384 S384x256 S64x64x63x256 where
  lhsContracting := [3]
  rhsContracting := [0]
  lhsNonContracting := [0, 1, 2]
  rhsNonContracting := [1]
  lhsBatch := []
  rhsBatch := []
  wf := dot_S64x64x63x384_S384x256_S64x64x63x256_3_0_012_1_n_n_wf
def dot_S64x64x63x256_S256x128_S64x64x63x128_3_0_012_1_n_n : DotDims S64x64x63x256 S256x128 S64x64x63x128 where
  lhsContracting := [3]
  rhsContracting := [0]
  lhsNonContracting := [0, 1, 2]
  rhsNonContracting := [1]
  lhsBatch := []
  rhsBatch := []
  wf := dot_S64x64x63x256_S256x128_S64x64x63x128_3_0_012_1_n_n_wf

class Facts : Prop extends Facts₀ where

variable [Facts]
-- ==== Proof.EdgeSpec.lean ====
/-
  THE SPECIFICATION: what both programs compute, as one function of the seven argument arrays.

  Shapes: atom features x[b, a, ·] (64 molecules of 64 atoms, 128 features), neighbour lists nb[b, a, n] (63 per atom,
  32-bit words), pair features f[b, a, n, ·] (128), a first dense layer W1 (384 × 256), b1 (256) and a second
  W2 (256 × 128), b2 (128).

  For the edge (b, a, n) the first layer's input is the concatenation of three vectors of length 128: the pair features
  f[b, a, n, ·], the features x[b, ν, ·] of the neighbour ν, and the features x[b, a, ·] of the atom itself. Its product
  with W1 therefore splits into three sums of 128 terms against the three horizontal bands of W1 (rows 0–127, 128–255,
  256–383). The neighbour ν is the word nb[b, a, n] read the way array indexing reads it: a negative word has 64 added
  (an index from the end), and the result is clamped into 0 … 63.

  Both layers end in the shifted softplus z ↦ max z 0 + log(1 + exp(−|z|)) − c with c the single-precision constant
  nearest ln 2, read as the rational its bit pattern denotes.

  Everything is on the extended reals, where + is commutative and associative, 0 · y = 0 and 1 · y = y for every y (the
  infinite ones too), so nothing below needs the inputs to be finite.
-/
import Idealize.ShloMosaic.PureOps.Ideal
import Idealize.ShloMosaic.PureOps.Ideal.Laws
import Idealize.ShloMosaic.Lib.ValueIdx
import Mathlib.Algebra.BigOperators.Fin

noncomputable section

namespace Cert.EdgeSpec

open Idealize.ShloMosaic Idealize.ShloMosaic.ValueIdx

/-! ## The activation -/

/-- The constant subtracted after each softplus: the extended real denoted by the f32 pattern nearest ln 2. -/
abbrev ln2 : EReal := Ideal.ofBits .f32 0x3F317218#32

/-- The shifted softplus, in the numerically stable form both programs spell: max z 0 + log1p (exp (−|z|)) − ln2,
    with |z| = max z (−z). -/
def ssp (z : EReal) : EReal := (max z 0 + Ideal.log1p (Ideal.exp (-(max z (-z))))) - ln2

/-- The spelling with a self-comparison guard (never taken: no extended real differs from itself), the difference
    z − 0 in place of z, and the negation written 0 − ·. -/
theorem ssp_of_sub (p : CmpFPredicate) (hp : p = .one ∨ p = .une) (z : EReal) :
    Scalar.select (Ideal.cmp p (z - 0) (z - 0)) (z + 0)
        (max z 0 + Ideal.log1p (Ideal.exp (0 - max (z - 0) (-(z - 0))))) - ln2 = ssp z := by
  have h : Ideal.cmp p (z - 0) (z - 0) = 0#1 := by
    rcases hp with rfl | rfl <;> simp [Ideal.cmp]
  rw [h, select_zero, sub_zero, zero_sub]
  rfl

/-- The same with the negation written −·. -/
theorem ssp_of_neg (p : CmpFPredicate) (hp : p = .one ∨ p = .une) (z : EReal) :
    Scalar.select (Ideal.cmp p (z - 0) (z - 0)) (z + 0)
        (max z 0 + Ideal.log1p (Ideal.exp (-(max (z - 0) (-(z - 0)))))) - ln2 = ssp z := by
  have h : Ideal.cmp p (z - 0) (z - 0) = 0#1 := by
    rcases hp with rfl | rfl <;> simp [Ideal.cmp]
  rw [h, select_zero, sub_zero]
  rfl

/-! ## The neighbour index -/

/-- A negative index word counts from the end of the 64 atoms. -/
def wrap (w : BitVec 32) : BitVec 32 := if w.slt 0#32 then w + 64#32 else w

/-- The neighbour an index word names: wrapped, then clamped into 0 … 63. -/
def nbr (w : BitVec 32) : Fin 64 := ⟨min (wrap w).toInt.toNat 63, by omega⟩

/-- The select-on-a-signed-comparison spelling of the wrap. -/
theorem wrap_of_select (w : BitVec 32) :
    Scalar.select (IntOp.cmpi .slt w 0#32) (IntOp.addi w 64#32) w = wrap w := by
  unfold Scalar.select IntOp.cmpi IntOp.addi wrap
  by_cases h : w.slt 0#32 = true
  · simp [h]
  · simp [h]

/-- The wrapped word clamped between the words 0 and 63, as signed maximum then signed minimum. -/
def clipw (w : BitVec 32) : BitVec 32 := IntOp.minsi 63#32 (IntOp.maxsi 0#32 (wrap w))

/-- A word clamped between the words 0 and 63 (signed maximum, then signed minimum) reads, signed, as its own signed
    value cut off below at 0 and above at 63. -/
theorem clamp_toInt (v : BitVec 32) :
    (IntOp.minsi 63#32 (IntOp.maxsi 0#32 v)).toInt = ((min v.toInt.toNat 63 : ℕ) : ℤ) := by
  unfold IntOp.minsi IntOp.maxsi
  simp only [BitVec.slt, decide_eq_true_eq]
  have h0 : (0#32 : BitVec 32).toInt = 0 := by decide
  have h63 : (63#32 : BitVec 32).toInt = 63 := by decide
  split_ifs <;> simp only [h0, h63] at * <;> omega

/-- The clamped word, read signed, is the neighbour index. -/
theorem clipw_toInt (w : BitVec 32) : (clipw w).toInt = ((nbr w).val : ℤ) := clamp_toInt (wrap w)

theorem clipw_range (w : BitVec 32) : 0 ≤ (clipw w).toInt ∧ (clipw w).toInt < ((64 : ℕ) : ℤ) := by
  rw [clipw_toInt]; have := (nbr w).isLt; omega

theorem clipw_toNat (w : BitVec 32) : (clipw w).toInt.toNat = (nbr w).val := by
  rw [clipw_toInt]; simp

/-! ## The three bands of the first layer's weight rows -/

def rowF (d : Fin 128) : Fin 384 := ⟨d.val, by omega⟩
def rowG (d : Fin 128) : Fin 384 := ⟨128 + d.val, by omega⟩
def rowC (d : Fin 128) : Fin 384 := ⟨256 + d.val, by omega⟩

/-- A sum over the 384 rows is the sum of the sums over the three bands. -/
theorem sum_bands {M : Type*} [AddCommMonoid M] (f : Fin 384 → M) :
    ∑ k : Fin 384, f k = (∑ d : Fin 128, f (rowF d) + ∑ d : Fin 128, f (rowG d)) + ∑ d : Fin 128, f (rowC d) := by
  have h1 := Fin.sum_univ_add (fun k : Fin (256 + 128) => f k)
  have h2 := Fin.sum_univ_add (fun k : Fin (128 + 128) => f (Fin.castAdd 128 k))
  rw [show (∑ k : Fin 384, f k) = ∑ k : Fin (256 + 128), f k from rfl, h1]
  rw [show (∑ i : Fin 256, f (Fin.castAdd 128 i)) = ∑ i : Fin (128 + 128), f (Fin.castAdd 128 i) from rfl, h2]
  rfl

/-! ## The two layers -/

section
variable (X : (⟨3, ![64, 64, 128]⟩ : Shape).Idx → EReal) (Nb : (⟨3, ![64, 64, 63]⟩ : Shape).Idx → BitVec 32)
  (Fij : (⟨4, ![64, 64, 63, 128]⟩ : Shape).Idx → EReal) (W1 : (⟨2, ![384, 256]⟩ : Shape).Idx → EReal)
  (B1 : (⟨1, ![256]⟩ : Shape).Idx → EReal) (W2 : (⟨2, ![256, 128]⟩ : Shape).Idx → EReal)
  (B2 : (⟨1, ![128]⟩ : Shape).Idx → EReal)

/-- The first layer before its activation, for the edge (b, a, n) and hidden unit h: the pair features against band
    0–127 of W1, the neighbour's features against band 128–255, the atom's own against band 256–383, and the bias. -/
def pre1 (b a : Fin 64) (n : Fin 63) (h : Fin 256) : EReal :=
  ((∑ d : Fin 128, Fij (ix4 b a n d) * W1 (ix2 (rowF d) h))
      + ∑ d : Fin 128, X (ix3 b (nbr (Nb (ix3 b a n))) d) * W1 (ix2 (rowG d) h))
    + (∑ d : Fin 128, X (ix3 b a d) * W1 (ix2 (rowC d) h))
    + B1 (ix1 h)

/-- The result for the edge (b, a, n) at output feature k. -/
def outAt (b a : Fin 64) (n : Fin 63) (k : Fin 128) : EReal :=
  ssp ((∑ j : Fin 256, ssp (pre1 X Nb Fij W1 B1 b a n j) * W2 (ix2 j k)) + B2 (ix1 k))

/-- The whole result array. -/
def out : (⟨4, ![64, 64, 63, 128]⟩ : Shape).Idx → EReal :=
  fun i => outAt X Nb Fij W1 B1 W2 B2 (i 0) (i 1) (i 2) (i 3)

theorem out_ix4 (b a : Fin 64) (n : Fin 63) (k : Fin 128) :
    out X Nb Fij W1 B1 W2 B2 (ix4 b a n k) = outAt X Nb Fij W1 B1 W2 B2 b a n k := rfl

end

end Cert.EdgeSpec

end
-- ==== Proof.RefValue.lean ====
/-
  THE REFERENCE PROGRAM COMPUTES THE SPECIFICATION.

  The reference builds, for every edge (b, a, n), the start-index pair (b, ν') — the batch number b from an iota, the
  neighbour word nb[b, a, n] with 64 added when it is negative —, gathers the row x[·, ·, :] at that pair (each component
  read signed and clamped into 0 … 63), lays the pair features, the gathered row and the atom's own row end to end along
  the last axis (384 entries), multiplies by W1, adds b1, applies the shifted softplus, multiplies by W2, adds b2 and
  applies the shifted softplus again.

  Read at the index (b, a, n, k):

    * the batch component is the word of b, which is not negative, so it is unchanged by the wrap and the clamp gives b;
    * the neighbour component is the wrapped word, and its clamp is the neighbour index ν of the specification;
    * the concatenation at row d of band 0, 1, 2 is f[b, a, n, d], x[b, ν, d], x[b, a, d];
    * a sum over the 384 rows is the sum of the three band sums, which is the specification's first layer;
    * each softplus block is the specification's activation.
-/
import proofs.«419080_j9122510536849_3_alg».proof.Proof.RefRead
import proofs.«419080_j9122510536849_3_alg».proof.Proof.EdgeSpec

noncomputable section

namespace Cert.ReferenceIdeal.RefValue

open Cert.ReferenceIdeal Cert.ReferenceIdeal.Gen Cert.ReferenceIdeal.ReadP Idealize.ShloMosaic Idealize.ShloMosaic.ValueIdx
open Cert.EdgeSpec (rowF rowG rowC nbr wrap ssp pre1)

/-! ## The gather of atom rows -/

/-- The gather's dimension numbers. -/
abbrev gd : GatherDims S64x64x128 S64x64x63x2 S64x64x63x128 :=
  gather_S64x64x128_S64x64x63x2_S64x64x63x128_3_01_n_n_01_3_11128

/-- Component 0 of the start index of (b, a, n, k) is read at (b, a, n, 0): the batch coordinates, and the component number
    on the index vector's axis. -/
theorem gd_siIdx0 (b a : Fin 64) (n : Fin 63) (k : Fin 128)
    (h : List.idxOf (0 : Fin 3) gd.startIndexMap < gd.startIndexMap.length) :
    gd.siIdx (ix4 b a n k) ⟨List.idxOf (0 : Fin 3) gd.startIndexMap, h⟩ = ix4 b a n (0 : Fin 2) := by
  funext c
  refine Fin.ext ?_
  match c with
  | ⟨0, _⟩ => rfl
  | ⟨1, _⟩ => rfl
  | ⟨2, _⟩ => rfl
  | ⟨3, _⟩ => rfl

/-- Component 1 of the start index of (b, a, n, k) is read at (b, a, n, 1). -/
theorem gd_siIdx1 (b a : Fin 64) (n : Fin 63) (k : Fin 128)
    (h : List.idxOf (1 : Fin 3) gd.startIndexMap < gd.startIndexMap.length) :
    gd.siIdx (ix4 b a n k) ⟨List.idxOf (1 : Fin 3) gd.startIndexMap, h⟩ = ix4 b a n (1 : Fin 2) := by
  funext c
  refine Fin.ext ?_
  match c with
  | ⟨0, _⟩ => rfl
  | ⟨1, _⟩ => rfl
  | ⟨2, _⟩ => rfl
  | ⟨3, _⟩ => rfl

/-- Operand axis 0 is in the start index map (component 0, slice size 1), is collapsed and is no batching axis: the
    operand coordinate is the start word read signed and clamped to 64 − 1. -/
theorem gd_coord0 {w : Nat} (idx : IVec S64x64x63x2 w) (b a : Fin 64) (n : Fin 63) (k : Fin 128) :
    gd.start (ix4 b a n k) idx 0 + gd.batchCoord (ix4 b a n k) 0 + gd.offCoord (ix4 b a n k) 0
      = min (idx (ix4 b a n (0 : Fin 2))).toInt.toNat 63 := by
  rw [GatherDims.batchCoord_eq_zero gd (ix4 b a n k) 0 (show (0 : Fin 3) ∉ ([] : List (Fin 3)) from List.not_mem_nil),
    GatherDims.offCoord_eq_zero gd (ix4 b a n k) 0
      (fun h => ((GatherDims.mem_sKept gd 0).mp h).1 (show (0 : Fin 3) ∈ ([0, 1] : List (Fin 3)) by decide))]
  simp only [Nat.add_zero]
  unfold GatherDims.start
  rw [dif_pos (show (0 : Fin 3) ∈ gd.startIndexMap from (by decide : (0 : Fin 3) ∈ ([0, 1] : List (Fin 3))))]
  rw [gd_siIdx0 b a n k]
  rfl

/-- Operand axis 1 likewise, with component 1. -/
theorem gd_coord1 {w : Nat} (idx : IVec S64x64x63x2 w) (b a : Fin 64) (n : Fin 63) (k : Fin 128) :
    gd.start (ix4 b a n k) idx 1 + gd.batchCoord (ix4 b a n k) 1 + gd.offCoord (ix4 b a n k) 1
      = min (idx (ix4 b a n (1 : Fin 2))).toInt.toNat 63 := by
  rw [GatherDims.batchCoord_eq_zero gd (ix4 b a n k) 1 (show (1 : Fin 3) ∉ ([] : List (Fin 3)) from List.not_mem_nil),
    GatherDims.offCoord_eq_zero gd (ix4 b a n k) 1
      (fun h => ((GatherDims.mem_sKept gd 1).mp h).1 (show (1 : Fin 3) ∈ ([0, 1] : List (Fin 3)) by decide))]
  simp only [Nat.add_zero]
  unfold GatherDims.start
  rw [dif_pos (show (1 : Fin 3) ∈ gd.startIndexMap from (by decide : (1 : Fin 3) ∈ ([0, 1] : List (Fin 3))))]
  rw [gd_siIdx1 b a n k]
  rfl

/-- Operand axis 2 is not in the start index map (start 0) and is the one kept axis, read by the result's offset axis 3:
    the operand coordinate is k. -/
theorem gd_coord2 {w : Nat} (idx : IVec S64x64x63x2 w) (b a : Fin 64) (n : Fin 63) (k : Fin 128) :
    gd.start (ix4 b a n k) idx 2 + gd.batchCoord (ix4 b a n k) 2 + gd.offCoord (ix4 b a n k) 2 = k.val := by
  rw [GatherDims.batchCoord_eq_zero gd (ix4 b a n k) 2 (show (2 : Fin 3) ∉ ([] : List (Fin 3)) from List.not_mem_nil)]
  have hs : gd.start (ix4 b a n k) idx 2 = 0 := by
    unfold GatherDims.start
    rw [dif_neg (show ¬ (2 : Fin 3) ∈ gd.startIndexMap from (by decide : (2 : Fin 3) ∉ ([0, 1] : List (Fin 3))))]
  rw [hs]
  simp only [Nat.add_zero, Nat.zero_add]
  unfold GatherDims.offCoord
  rw [dif_pos (show (2 : Fin 3) ∈ gd.sKept from
    (GatherDims.mem_sKept gd 2).mpr ⟨(by decide : (2 : Fin 3) ∉ ([0, 1] : List (Fin 3))), List.not_mem_nil⟩)]
  rfl

/-- The gather read at (b, a, n, k): the operand at the two start-index words of (b, a, n), each read signed and clamped
    into 0 … 63 (the caller names the two clamped values), and at k on the last axis. -/
theorem gather_apply {α : Type} {w : Nat} (x : S64x64x128.Idx → α) (idx : IVec S64x64x63x2 w)
    (b a : Fin 64) (n : Fin 63) (k : Fin 128) (i0 i1 : Fin 64)
    (h0 : min (idx (ix4 b a n (0 : Fin 2))).toInt.toNat 63 = i0.val)
    (h1 : min (idx (ix4 b a n (1 : Fin 2))).toInt.toNat 63 = i1.val) :
    Host.gather gd x idx (ix4 b a n k) = x (ix3 i0 i1 k) := by
  unfold Host.gather
  congr 1
  funext c
  refine Fin.ext ?_
  match c with
  | ⟨0, _⟩ => exact (gd_coord0 idx b a n k).trans h0
  | ⟨1, _⟩ => exact (gd_coord1 idx b a n k).trans h1
  | ⟨2, _⟩ => exact gd_coord2 idx b a n k

/-! ## The two concatenations -/

/-- The two-column concatenation at column 0 is the first piece. -/
theorem cat2_left {α : Type} (p q : S64x64x63x1.Idx → α)
    (h : Shape.Concatenates [S64x64x63x1, S64x64x63x1] S64x64x63x2 3) (b a : Fin 64) (n : Fin 63) :
    concatenate S64x64x63x2 3 [⟨S64x64x63x1, p⟩, ⟨S64x64x63x1, q⟩] h (ix4 b a n (0 : Fin 2))
      = p (ix4 b a n (0 : Fin 1)) := by
  refine concatenate_pair_apply_left (t := S64x64x63x2) (s₁ := S64x64x63x1) (s₂ := S64x64x63x1) 3 p q h _ rfl _ ?_
  intro c
  match c with
  | ⟨0, _⟩ => rfl
  | ⟨1, _⟩ => rfl
  | ⟨2, _⟩ => rfl
  | ⟨3, _⟩ => rfl

/-- The two-column concatenation at column 1 is the second piece. -/
theorem cat2_right {α : Type} (p q : S64x64x63x1.Idx → α)
    (h : Shape.Concatenates [S64x64x63x1, S64x64x63x1] S64x64x63x2 3) (b a : Fin 64) (n : Fin 63) :
    concatenate S64x64x63x2 3 [⟨S64x64x63x1, p⟩, ⟨S64x64x63x1, q⟩] h (ix4 b a n (1 : Fin 2))
      = q (ix4 b a n (0 : Fin 1)) := by
  refine concatenate_pair_apply_right (t := S64x64x63x2) (s₁ := S64x64x63x1) (s₂ := S64x64x63x1) 3 p q h _ rfl rfl _ ?_ rfl
  intro c hc
  match c with
  | ⟨0, _⟩ => rfl
  | ⟨1, _⟩ => rfl
  | ⟨2, _⟩ => rfl
  | ⟨3, _⟩ => exact absurd rfl hc

/-- The three-band concatenation at row d of band 0 (rows 0 … 127) is the first piece at d. -/
theorem cat3_F {α : Type} (p q r : S64x64x63x128.Idx → α)
    (h : Shape.Concatenates [S64x64x63x128, S64x64x63x128, S64x64x63x128] S64x64x63x384 3)
    (b a : Fin 64) (n : Fin 63) (d : Fin 128) :
    concatenate S64x64x63x384 3 [⟨S64x64x63x128, p⟩, ⟨S64x64x63x128, q⟩, ⟨S64x64x63x128, r⟩] h (ix4 b a n (rowF d))
      = p (ix4 b a n d) := by
  refine concatenate_apply_piece (t := S64x64x63x384) 3
    [⟨S64x64x63x128, p⟩, ⟨S64x64x63x128, q⟩, ⟨S64x64x63x128, r⟩] h _ 0 (by simp) S64x64x63x128 p rfl rfl 0 rfl
    (ix4 b a n d) ?_ ?_
  · intro c hc
    match c with
    | ⟨0, _⟩ => rfl
    | ⟨1, _⟩ => rfl
    | ⟨2, _⟩ => rfl
    | ⟨3, _⟩ => exact absurd rfl hc
  · show 0 + d.val = d.val
    omega

/-- At row d of band 1 (rows 128 … 255) it is the second piece at d. -/
theorem cat3_G {α : Type} (p q r : S64x64x63x128.Idx → α)
    (h : Shape.Concatenates [S64x64x63x128, S64x64x63x128, S64x64x63x128] S64x64x63x384 3)
    (b a : Fin 64) (n : Fin 63) (d : Fin 128) :
    concatenate S64x64x63x384 3 [⟨S64x64x63x128, p⟩, ⟨S64x64x63x128, q⟩, ⟨S64x64x63x128, r⟩] h (ix4 b a n (rowG d))
      = q (ix4 b a n d) := by
  refine concatenate_apply_piece (t := S64x64x63x384) 3
    [⟨S64x64x63x128, p⟩, ⟨S64x64x63x128, q⟩, ⟨S64x64x63x128, r⟩] h _ 1 (by simp) S64x64x63x128 q rfl rfl 128 rfl
    (ix4 b a n d) ?_ ?_
  · intro c hc
    match c with
    | ⟨0, _⟩ => rfl
    | ⟨1, _⟩ => rfl
    | ⟨2, _⟩ => rfl
    | ⟨3, _⟩ => exact absurd rfl hc
  · rfl

/-- At row d of band 2 (rows 256 … 383) it is the third piece at d. -/
theorem cat3_C {α : Type} (p q r : S64x64x63x128.Idx → α)
    (h : Shape.Concatenates [S64x64x63x128, S64x64x63x128, S64x64x63x128] S64x64x63x384 3)
    (b a : Fin 64) (n : Fin 63) (d : Fin 128) :
    concatenate S64x64x63x384 3 [⟨S64x64x63x128, p⟩, ⟨S64x64x63x128, q⟩, ⟨S64x64x63x128, r⟩] h (ix4 b a n (rowC d))
      = r (ix4 b a n d) := by
  refine concatenate_apply_piece (t := S64x64x63x384) 3
    [⟨S64x64x63x128, p⟩, ⟨S64x64x63x128, q⟩, ⟨S64x64x63x128, r⟩] h _ 2 (by simp) S64x64x63x128 r rfl rfl 256 rfl
    (ix4 b a n d) ?_ ?_
  · intro c hc
    match c with
    | ⟨0, _⟩ => rfl
    | ⟨1, _⟩ => rfl
    | ⟨2, _⟩ => rfl
    | ⟨3, _⟩ => exact absurd rfl hc
  · rfl

/-! ## The start-index pair -/

/-- The word of a batch number below 64 is not negative: the wrap leaves it alone and the clamp returns the number. -/
theorem batch_word : ∀ b : Fin 64, min (wrap (BitVec.ofNat 32 b.val)).toInt.toNat 63 = b.val := by
  decide

section
variable (x0 : (⟨S64x64x128, .f32⟩ : BufTy).Contents (Elt Ideal)) (x1 : (⟨S64x64x63, .i32⟩ : BufTy).Contents (Elt Ideal))
  (x2 : (⟨S64x64x63x128, .f32⟩ : BufTy).Contents (Elt Ideal)) (x3 : (⟨S384x256, .f32⟩ : BufTy).Contents (Elt Ideal))
  (x4 : (⟨S256, .f32⟩ : BufTy).Contents (Elt Ideal)) (x5 : (⟨S256x128, .f32⟩ : BufTy).Contents (Elt Ideal))
  (x6 : (⟨S128, .f32⟩ : BufTy).Contents (Elt Ideal))

/-- Column 0 of the start indices at (b, a, n): the batch number's word, wrapped. -/
theorem v13_at (b a : Fin 64) (n : Fin 63) :
    val_main_v13 (F := Ideal) (ix4 b a n (0 : Fin 1)) = wrap (BitVec.ofNat 32 b.val) := by
  rw [val_main_v13_apply, val_main_v12_apply, val_main_v6_apply, val_main_v3_apply, val_main_v5_apply,
    val_main_v1_apply, val_main_v2_apply, val_main_v4_apply, val_main_v0_apply, val_main_c_apply, val_main_c_0_apply]
  exact EdgeSpec.wrap_of_select _

/-- Column 1 of the start indices at (b, a, n): the neighbour word, wrapped. -/
theorem v14_at (b a : Fin 64) (n : Fin 63) :
    val_main_v14 (F := Ideal) x1 (ix4 b a n (0 : Fin 1)) = wrap (x1 (ix3 b a n)) := by
  have e : idx_main_v14 (ix4 b a n (0 : Fin 1)) = ix3 b a n :=
    funext fun c => Fin.ext (by match c with | ⟨0, _⟩ => rfl | ⟨1, _⟩ => rfl | ⟨2, _⟩ => rfl)
  rw [val_main_v14_apply, val_main_v11_apply, val_main_v8_apply, val_main_v10_apply, val_main_v7_apply,
    val_main_v9_apply, val_main_c_1_apply, val_main_c_2_apply, e]
  exact EdgeSpec.wrap_of_select _

/-- The gathered row at (b, a, n, k): the neighbour's feature k. -/
theorem v16_at (b a : Fin 64) (n : Fin 63) (k : Fin 128) :
    val_main_v16 (F := Ideal) x0 x1 (ix4 b a n k) = x0 (ix3 b (nbr (x1 (ix3 b a n))) k) := by
  unfold val_main_v16
  refine gather_apply x0 _ b a n k b (nbr (x1 (ix3 b a n))) ?_ ?_
  · unfold val_main_v15
    rw [cat2_left, v13_at]
    exact batch_word b
  · unfold val_main_v15
    rw [cat2_right, v14_at]
    rfl

/-- The atom's own row, broadcast over its neighbours, at (b, a, n, k). -/
theorem v18_at (b a : Fin 64) (n : Fin 63) (k : Fin 128) :
    val_main_v18 (F := Ideal) x0 (ix4 b a n k) = x0 (ix3 b a k) := by
  have e : idx_main_v17 (idx_main_v18 (ix4 b a n k)) = ix3 b a k :=
    funext fun c => Fin.ext (by match c with | ⟨0, _⟩ => rfl | ⟨1, _⟩ => rfl | ⟨2, _⟩ => rfl)
  rw [val_main_v18_apply, val_main_v17_apply, e]

/-! ## The first layer -/

theorem v19_F (b a : Fin 64) (n : Fin 63) (d : Fin 128) :
    val_main_v19 (F := Ideal) x0 x1 x2 (ix4 b a n (rowF d)) = x2 (ix4 b a n d) := by
  unfold val_main_v19
  exact cat3_F _ _ _ _ b a n d

theorem v19_G (b a : Fin 64) (n : Fin 63) (d : Fin 128) :
    val_main_v19 (F := Ideal) x0 x1 x2 (ix4 b a n (rowG d)) = x0 (ix3 b (nbr (x1 (ix3 b a n))) d) := by
  unfold val_main_v19
  rw [cat3_G, v16_at]

theorem v19_C (b a : Fin 64) (n : Fin 63) (d : Fin 128) :
    val_main_v19 (F := Ideal) x0 x1 x2 (ix4 b a n (rowC d)) = x0 (ix3 b a d) := by
  unfold val_main_v19
  rw [cat3_C, v18_at]

/-- The first layer before its activation. -/
theorem v23_at (b a : Fin 64) (n : Fin 63) (h : Fin 256) :
    val_main_v23 (F := Ideal) x0 x1 x2 x3 x4 (ix4 b a n h) = pre1 x0 x1 x2 x3 x4 b a n h := by
  have el : ∀ k : Fin 384, lidx_main_v20 (ix4 b a n h) k = ix4 b a n k := fun k =>
    funext fun c => Fin.ext (by match c with | ⟨0, _⟩ => rfl | ⟨1, _⟩ => rfl | ⟨2, _⟩ => rfl | ⟨3, _⟩ => rfl)
  have er : ∀ k : Fin 384, ridx_main_v20 (ix4 b a n h) k = ix2 k h := fun k =>
    funext fun c => Fin.ext (by match c with | ⟨0, _⟩ => rfl | ⟨1, _⟩ => rfl)
  have eb : idx_main_v21 (idx_main_v22 (ix4 b a n h)) = ix1 h :=
    funext fun c => Fin.ext (by match c with | ⟨0, _⟩ => rfl)
  rw [val_main_v23_apply, val_main_v20_apply, val_main_v22_apply, val_main_v21_apply, eb, EdgeSpec.sum_bands]
  simp only [el, er, v19_F, v19_G, v19_C]
  rfl

/-- The first layer's activation. -/
theorem v26_at (b a : Fin 64) (n : Fin 63) (h : Fin 256) :
    val_main_v26 (F := Ideal) x0 x1 x2 x3 x4 (ix4 b a n h) = ssp (pre1 x0 x1 x2 x3 x4 b a n h) := by
  rw [val_main_v26_apply, val_main_v24_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply, val_main_v25_apply, val_main_cst_apply,
    v23_at]
  simp only [Ideal.ofBits_def, Ideal.addf_def, Ideal.subf_def, Ideal.maximumf_def, Ideal.hostNegf_def, Ideal.negf_def,
    Ideal.hostAbsf_def, Ideal.absf_def, Ideal.hostUnary_exp_def, Ideal.hostUnary_log1p_def, Ideal.cmpf_def,
    Ideal.ofBits_zero_f32]
  exact EdgeSpec.ssp_of_neg .une (Or.inr rfl) _

/-! ## The second layer -/

/-- The second layer before its activation. -/
theorem v30_at (b a : Fin 64) (n : Fin 63) (k : Fin 128) :
    val_main_v30 (F := Ideal) x0 x1 x2 x3 x4 x5 x6 (ix4 b a n k)
      = (∑ j : Fin 256, ssp (pre1 x0 x1 x2 x3 x4 b a n j) * x5 (ix2 j k)) + x6 (ix1 k) := by
  have el : ∀ j : Fin 256, lidx_main_v27 (ix4 b a n k) j = ix4 b a n j := fun j =>
    funext fun c => Fin.ext (by match c with | ⟨0, _⟩ => rfl | ⟨1, _⟩ => rfl | ⟨2, _⟩ => rfl | ⟨3, _⟩ => rfl)
  have er : ∀ j : Fin 256, ridx_main_v27 (ix4 b a n k) j = ix2 j k := fun j =>
    funext fun c => Fin.ext (by match c with | ⟨0, _⟩ => rfl | ⟨1, _⟩ => rfl)
  have eb : idx_main_v28 (idx_main_v29 (ix4 b a n k)) = ix1 k :=
    funext fun c => Fin.ext (by match c with | ⟨0, _⟩ => rfl)
  rw [val_main_v30_apply, val_main_v27_apply, val_main_v29_apply, val_main_v28_apply, eb]
  simp only [el, er, v26_at]
  rfl

/-- THE REFERENCE'S RESULT IS THE SPECIFICATION. -/
theorem ref_eq :
    val_main_v33 (F := Ideal) x0 x1 x2 x3 x4 x5 x6 = EdgeSpec.out x0 x1 x2 x3 x4 x5 x6 := by
  funext i
  obtain ⟨b, a, n, k, rfl⟩ : ∃ (b a : Fin 64) (n : Fin 63) (k : Fin 128), i = ix4 b a n k :=
    ⟨i 0, i 1, i 2, i 3, eq_ix4 i⟩
  rw [EdgeSpec.out_ix4]
  unfold EdgeSpec.outAt
  rw [val_main_v33_apply, val_main_v31_apply, val_main_call1_v4_apply, val_main_call1_v6_apply,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_v5_apply, val_main_call1_cst_apply, val_main_v32_apply,
    val_main_cst_3_apply, v30_at]
  simp only [Ideal.ofBits_def, Ideal.addf_def, Ideal.subf_def, Ideal.maximumf_def, Ideal.hostNegf_def, Ideal.negf_def,
    Ideal.hostAbsf_def, Ideal.absf_def, Ideal.hostUnary_exp_def, Ideal.hostUnary_log1p_def, Ideal.cmpf_def,
    Ideal.ofBits_zero_f32]
  exact EdgeSpec.ssp_of_neg .une (Or.inr rfl) _

end

end Cert.ReferenceIdeal.RefValue

end
-- ==== Proof.LibSegmentSum.lean ====
import Mathlib.Data.EReal.Inv
import Mathlib.Algebra.BigOperators.Fin
import Mathlib.Algebra.BigOperators.Group.Finset.Basic
import Mathlib.Algebra.BigOperators.Group.Finset.Piecewise
import Mathlib.Data.Fintype.BigOperators
import Mathlib.Logic.Equiv.Fin.Basic

/-!
# Segment sums and gathers written as one-hot matrix products

A gather `h[src e]` can be computed as the product of a one-hot row `(src e = k)_k` with `h`,
and a scatter-add (segment sum) `∑_{e : dst e = n} m e` as the product of the transposed
one-hot matrix `(n = dst e)_e` with `m`; either product can be accumulated block by block.
The lemmas of this file say that these products are the plain gather and the plain segment sum,
over the extended reals (where `0 * x = 0` for every `x`, infinite ones included) and with
node identifiers read as 32-bit two's complement words.
-/

namespace Cert.LibSegmentSum

open Finset

/-! ## Sums read block by block -/

/-- The position `a * B + b` of the `b`-th entry of the `a`-th block lies below `A * B`. -/
theorem blk_lt {A B : ℕ} (a : Fin A) (b : Fin B) : a.val * B + b.val < A * B := by
  calc a.val * B + b.val < a.val * B + B := Nat.add_lt_add_left b.isLt _
    _ = (a.val + 1) * B := (Nat.succ_mul _ _).symm
    _ ≤ A * B := Nat.mul_le_mul_right _ a.isLt

/-- A sum over `A * B` positions is the sum over the `A` blocks of the sums over the `B`
positions `a * B + b` of each block. -/
theorem sum_blocks {M : Type*} [AddCommMonoid M] (A B : ℕ) (f : Fin (A * B) → M) :
    ∑ a : Fin A, ∑ b : Fin B, f ⟨a.val * B + b.val, blk_lt a b⟩ = ∑ n : Fin (A * B), f n := by
  calc ∑ a : Fin A, ∑ b : Fin B, f ⟨a.val * B + b.val, blk_lt a b⟩
      = ∑ x : Fin A × Fin B, f ⟨x.1.val * B + x.2.val, blk_lt x.1 x.2⟩ :=
        (Fintype.sum_prod_type' (fun a b => f ⟨a.val * B + b.val, blk_lt a b⟩)).symm
    _ = ∑ x : Fin A × Fin B, f (finProdFinEquiv x) := by
        refine Fintype.sum_congr _ _ fun x => congrArg f (Fin.ext ?_)
        show x.1.val * B + x.2.val = x.2.val + B * x.1.val
        rw [Nat.mul_comm, Nat.add_comm]
    _ = ∑ n : Fin (A * B), f n := Equiv.sum_comp finProdFinEquiv f

/-- An accumulator that starts at `0` and adds `g a` at step `a` holds `∑ a < A, g a`
after `A` steps. -/
theorem acc_eq_sum {M : Type*} [AddCommMonoid M] (A : ℕ) (g : ℕ → M) (acc : ℕ → M)
    (h0 : acc 0 = 0) (hs : ∀ a, a < A → acc (a + 1) = acc a + g a) :
    acc A = ∑ a : Fin A, g a.val := by
  induction A with
  | zero => simpa using h0
  | succ A ih =>
    rw [hs A (Nat.lt_succ_self A), ih (fun a ha => hs a (Nat.lt_succ_of_lt ha)),
      Fin.sum_univ_castSucc]
    rfl

/-- The accumulator recursion of a blocked sum: starting at `0` and adding at step `a` the
partial sum `0 + ∑ b, f (a * B + b)` of block `a` gives, after `A` steps, the whole sum. -/
theorem acc_blocks {M : Type*} [AddCommMonoid M] (A B : ℕ) (f : Fin (A * B) → M) (acc : ℕ → M)
    (h0 : acc 0 = 0)
    (hs : ∀ a (ha : a < A), acc (a + 1)
      = acc a + (0 + ∑ b : Fin B, f ⟨a * B + b.val, blk_lt ⟨a, ha⟩ b⟩)) :
    acc A = ∑ n : Fin (A * B), f n := by
  have h := acc_eq_sum A
    (fun a => if ha : a < A then (0 + ∑ b : Fin B, f ⟨a * B + b.val, blk_lt ⟨a, ha⟩ b⟩) else 0)
    acc h0 (fun a ha => by rw [hs a ha, dif_pos ha])
  rw [h, ← sum_blocks]
  refine Fintype.sum_congr _ _ fun a => ?_
  rw [dif_pos a.isLt, zero_add]

/-- `sum_blocks` at `125` blocks of `800`: a sum over `100000` positions. -/
theorem sum_blocks_125_800 {M : Type*} [AddCommMonoid M] (f : Fin 100000 → M) :
    ∑ a : Fin 125, ∑ b : Fin 800, f ⟨a.val * 800 + b.val, blk_lt (A := 125) a b⟩
      = ∑ n : Fin 100000, f n :=
  sum_blocks 125 800 f

/-- `sum_blocks` at `208` blocks of `8192`: a sum over `1703936` positions. -/
theorem sum_blocks_208_8192 {M : Type*} [AddCommMonoid M] (f : Fin 1703936 → M) :
    ∑ a : Fin 208, ∑ b : Fin 8192, f ⟨a.val * 8192 + b.val, blk_lt (A := 208) a b⟩
      = ∑ n : Fin 1703936, f n :=
  sum_blocks 208 8192 f

/-- `acc_blocks` at `125` blocks of `800`. -/
theorem acc_blocks_125_800 {M : Type*} [AddCommMonoid M] (f : Fin 100000 → M) (acc : ℕ → M)
    (h0 : acc 0 = 0)
    (hs : ∀ a (ha : a < 125), acc (a + 1)
      = acc a + (0 + ∑ b : Fin 800, f ⟨a * 800 + b.val, blk_lt (A := 125) ⟨a, ha⟩ b⟩)) :
    acc 125 = ∑ n : Fin 100000, f n :=
  acc_blocks 125 800 f acc h0 hs

/-- `acc_blocks` at `208` blocks of `8192`. -/
theorem acc_blocks_208_8192 {M : Type*} [AddCommMonoid M] (f : Fin 1703936 → M) (acc : ℕ → M)
    (h0 : acc 0 = 0)
    (hs : ∀ a (ha : a < 208), acc (a + 1)
      = acc a + (0 + ∑ b : Fin 8192, f ⟨a * 8192 + b.val, blk_lt (A := 208) ⟨a, ha⟩ b⟩)) :
    acc 208 = ∑ n : Fin 1703936, f n :=
  acc_blocks 208 8192 f acc h0 hs

/-! ## Node identifiers as 32-bit words -/

/-- A natural number below `2^31`, written as a 32-bit word, reads back as itself in two's
complement. -/
theorem toInt_ofNat_small (n : ℕ) (hn : n < 2 ^ 31) : (BitVec.ofNat 32 n).toInt = (n : ℤ) := by
  have hm : n % 2 ^ 32 = n := Nat.mod_eq_of_lt (by omega)
  rw [BitVec.toInt_eq_toNat_cond, BitVec.toNat_ofNat, hm]
  split <;> omega

/-- A word whose two's complement value lies in `[0, N)` has a natural value below `N`. -/
theorem toNat_lt_of_range {s : BitVec 32} {N : ℕ} (hs : 0 ≤ s.toInt ∧ s.toInt < (N : ℤ)) :
    s.toInt.toNat < N := by
  obtain ⟨h0, h1⟩ := hs
  omega

/-- For `n < 2^31`, a word equals the word of `n` exactly when its two's complement value
is `n`. -/
theorem eq_ofNat_iff (s : BitVec 32) (n : ℕ) (hn : n < 2 ^ 31) :
    s = BitVec.ofNat 32 n ↔ s.toInt = (n : ℤ) := by
  rw [← BitVec.toInt_inj, toInt_ofNat_small n hn]

/-- The same with the two sides of the equation exchanged. -/
theorem ofNat_eq_iff (s : BitVec 32) (n : ℕ) (hn : n < 2 ^ 31) :
    BitVec.ofNat 32 n = s ↔ s.toInt = (n : ℤ) := by
  rw [eq_comm]; exact eq_ofNat_iff s n hn

/-! ## One-hot selection -/

/-- The product of the one-hot row of an in-range identifier `s` with a column `h` is the
entry `h s`: a gather. -/
theorem onehot_select (N : ℕ) (hN : N ≤ 2 ^ 31) (s : BitVec 32) (h : Fin N → EReal)
    (hs : 0 ≤ s.toInt ∧ s.toInt < (N : ℤ)) :
    ∑ n : Fin N, (if s = BitVec.ofNat 32 n.val then (1 : EReal) else 0) * h n
      = h ⟨s.toInt.toNat, toNat_lt_of_range hs⟩ := by
  have key : ∀ n : Fin N, s = BitVec.ofNat 32 n.val ↔ n = ⟨s.toInt.toNat, toNat_lt_of_range hs⟩ := by
    intro n
    have hn := n.isLt
    rw [eq_ofNat_iff s n.val (by omega), Fin.ext_iff]
    show s.toInt = (n.val : ℤ) ↔ n.val = s.toInt.toNat
    obtain ⟨h0, h1⟩ := hs
    omega
  simp only [key, ite_mul, one_mul, zero_mul]
  rw [Finset.sum_ite_eq']
  exact if_pos (mem_univ _)

/-- The one-hot row of an identifier that is negative or not below `N` is zero, and so is its
product with any column. -/
theorem onehot_select_out (N : ℕ) (hN : N ≤ 2 ^ 31) (s : BitVec 32) (h : Fin N → EReal)
    (hs : s.toInt < 0 ∨ (N : ℤ) ≤ s.toInt) :
    ∑ n : Fin N, (if s = BitVec.ofNat 32 n.val then (1 : EReal) else 0) * h n = 0 := by
  refine Finset.sum_eq_zero fun n _ => ?_
  have hn := n.isLt
  have hne : ¬ s = BitVec.ofNat 32 n.val := by
    rw [eq_ofNat_iff s n.val (by omega)]
    omega
  rw [if_neg hne, zero_mul]

/-! ## A message-passing layer with zero padding -/

/-- Gather, weight and scatter-add as two one-hot products over a zero-padded edge list:
for `E` edges `(src e, dst e)` with weights `nrm e`, every `src e` in `[0, N)`, extended by
`P` padding edges of weight `0` (whatever their end points), the product of the transposed
one-hot matrix of the destinations with the weighted gathered rows is the segment sum
`∑_{e : dst e = n} nrm e * h (src e)`.  Nothing is asked of `dst`: a destination that is
negative or not below `N` matches no `n` on either side. -/
theorem layer_padded (N E P : ℕ) (hN : N ≤ 2 ^ 31)
    (src dst : Fin E → BitVec 32) (nrm : Fin E → EReal) (h : Fin N → EReal)
    (hsrc : ∀ e, 0 ≤ (src e).toInt ∧ (src e).toInt < (N : ℤ))
    (srcP dstP : Fin (E + P) → BitVec 32) (nrmP : Fin (E + P) → EReal)
    (hsrcP : ∀ (e : Fin (E + P)) (he : e.val < E), srcP e = src ⟨e.val, he⟩)
    (hdstP : ∀ (e : Fin (E + P)) (he : e.val < E), dstP e = dst ⟨e.val, he⟩)
    (hnrmP : ∀ (e : Fin (E + P)) (he : e.val < E), nrmP e = nrm ⟨e.val, he⟩)
    (hnrm0 : ∀ e : Fin (E + P), E ≤ e.val → nrmP e = 0)
    (n : Fin N) :
    ∑ e : Fin (E + P), (if BitVec.ofNat 32 n.val = dstP e then (1 : EReal) else 0)
        * ((∑ k : Fin N, (if srcP e = BitVec.ofNat 32 k.val then (1 : EReal) else 0) * h k)
            * nrmP e)
      = ∑ e ∈ Finset.univ.filter (fun e : Fin E => (dst e).toInt = (n.val : ℤ)),
          nrm e * h ⟨(src e).toInt.toNat, toNat_lt_of_range (hsrc e)⟩ := by
  have hn : n.val < 2 ^ 31 := lt_of_lt_of_le n.isLt hN
  rw [Fin.sum_univ_add]
  -- the padding edges carry weight zero
  have hpad : ∑ i : Fin P, (if BitVec.ofNat 32 n.val = dstP (Fin.natAdd E i) then (1 : EReal) else 0)
        * ((∑ k : Fin N, (if srcP (Fin.natAdd E i) = BitVec.ofNat 32 k.val then (1 : EReal) else 0)
              * h k) * nrmP (Fin.natAdd E i)) = 0 :=
    Finset.sum_eq_zero fun i _ => by
      rw [hnrm0 (Fin.natAdd E i) (Nat.le_add_right E i.val), mul_zero, mul_zero]
  rw [hpad, add_zero, Finset.sum_filter]
  refine Fintype.sum_congr _ _ fun e => ?_
  have he : (Fin.castAdd P e).val < E := e.isLt
  rw [hsrcP _ he, hdstP _ he, hnrmP _ he]
  show (if BitVec.ofNat 32 n.val = dst e then (1 : EReal) else 0)
      * ((∑ k : Fin N, (if src e = BitVec.ofNat 32 k.val then (1 : EReal) else 0) * h k) * nrm e)
    = if (dst e).toInt = (n.val : ℤ) then
        nrm e * h ⟨(src e).toInt.toNat, toNat_lt_of_range (hsrc e)⟩ else 0
  rw [onehot_select N hN (src e) h (hsrc e)]
  by_cases hd : (dst e).toInt = (n.val : ℤ)
  · rw [if_pos hd, if_pos ((ofNat_eq_iff (dst e) n.val hn).2 hd), one_mul, mul_comm]
  · rw [if_neg hd, if_neg (fun h' => hd ((ofNat_eq_iff (dst e) n.val hn).1 h')), zero_mul]

/-- `layer_padded` at `100000` nodes and `1700000` edges padded to `1703936`. -/
theorem layer_padded_100000
    (src dst : Fin 1700000 → BitVec 32) (nrm : Fin 1700000 → EReal) (h : Fin 100000 → EReal)
    (hsrc : ∀ e, 0 ≤ (src e).toInt ∧ (src e).toInt < ((100000 : ℕ) : ℤ))
    (srcP dstP : Fin 1703936 → BitVec 32) (nrmP : Fin 1703936 → EReal)
    (hsrcP : ∀ (e : Fin 1703936) (he : e.val < 1700000), srcP e = src ⟨e.val, he⟩)
    (hdstP : ∀ (e : Fin 1703936) (he : e.val < 1700000), dstP e = dst ⟨e.val, he⟩)
    (hnrmP : ∀ (e : Fin 1703936) (he : e.val < 1700000), nrmP e = nrm ⟨e.val, he⟩)
    (hnrm0 : ∀ e : Fin 1703936, 1700000 ≤ e.val → nrmP e = 0)
    (n : Fin 100000) :
    ∑ e : Fin 1703936, (if BitVec.ofNat 32 n.val = dstP e then (1 : EReal) else 0)
        * ((∑ k : Fin 100000, (if srcP e = BitVec.ofNat 32 k.val then (1 : EReal) else 0) * h k)
            * nrmP e)
      = ∑ e ∈ Finset.univ.filter (fun e : Fin 1700000 => (dst e).toInt = (n.val : ℤ)),
          nrm e * h ⟨(src e).toInt.toNat, toNat_lt_of_range (hsrc e)⟩ :=
  layer_padded 100000 1700000 3936 (by norm_num) src dst nrm h hsrc srcP dstP nrmP
    hsrcP hdstP hnrmP hnrm0 n

end Cert.LibSegmentSum
-- ==== Proof.BodyLemmas.lean ====
/-
  SMALL FACTS ABOUT VECTOR OPERATIONS, READ AT AN INDEX, at the extended reals.

  A rows-by-columns matrix product accumulated onto zero is the plain sum of products. A column broadcast along a row
  repeats each row's one entry; a row of counters 0, 1, 2, … broadcast down the rows repeats the counter. Comparing the
  two for equality, widening the bit to a word and converting it to a float gives the one-hot matrix of the column:
  entry (r, a) is 1 when row r's word is a, and 0 otherwise.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.BodyLemmas

open Idealize.ShloMosaic Idealize.ShloMosaic.ValueIdx

/-! ## A rows-by-columns matrix product into a zero accumulator -/

theorem plain_lhs0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs1 (M K N : Nat) (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem plain_rhs0 (M K N : Nat) (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem plain_rhs1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an M × K by a K × N matrix, accumulated onto zero, at (p, q): the sum over k of L[p, k] · R[k, q]. -/
theorem plain_matmul_zero {M K N : Nat} {φ₁ φ₂ : FTy} (L : FVec Ideal ⟨2, ![M, K]⟩ φ₁) (R : FVec Ideal ⟨2, ![K, N]⟩ φ₂)
    (p : Fin M) (q : Fin N) :
    FloatOps.matmul (DotDims.plain M K N) none L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 M K N _ _).trans hk
      | ⟨1, _⟩ => exact plain_rhs1 M K N _ _)
  rw [el, er]

/-! ## One entry of a one-hot row -/

/-- The comparison bit of a word against a column number, widened to a word and read as a signed integer, is 1 on
    equality and 0 otherwise. -/
theorem onehot_word (c : BitVec 32) (a : ℕ) :
    ((((IntOp.cmpi .eq c (BitVec.ofNat 32 a)).setWidth 32).toInt : ℝ) : EReal)
      = if c = BitVec.ofNat 32 a then 1 else 0 := by
  unfold IntOp.cmpi
  by_cases h : c = BitVec.ofNat 32 a
  · rw [if_pos h]
    have hb : (c == BitVec.ofNat 32 a) = true := by simpa using h
    simp only [hb]
    have : ((BitVec.ofBool true).setWidth 32).toInt = 1 := by decide
    rw [this]; norm_num
  · rw [if_neg h]
    have hb : (c == BitVec.ofNat 32 a) = false := by simpa using h
    simp only [hb]
    have : ((BitVec.ofBool false).setWidth 32).toInt = 0 := by decide
    rw [this]; norm_num

/-! ## A column repeated along the rows, a row of counters repeated down the rows -/

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The counters 0, 1, 2, … along axis 1 of a [1, n] row: entry (u, c) is the word of c. -/
theorem iota_row_apply {n : ℕ} (κ : Kind) (h : (⟨2, ![1, n]⟩ : Shape).Iotas κ 32 [1]) (u : Fin 1) (c : Fin n) :
    iota κ (⟨2, ![1, n]⟩ : Shape) 32 [1] h (ix2 u c) = BitVec.ofNat 32 c.val := by
  unfold iota
  congr 1
  simp
  rfl

/-- The one-hot matrix of a column of words: compare the column, repeated along the rows, with the counters, repeated
    down the rows; widen the comparison bit to a word; convert to a float (a change of float format after that is the
    identity). Entry (r, a) is 1 if row r's word is the word of a, else 0. -/
theorem onehot_apply {R C : ℕ} (κ : Kind) (col : IVec (⟨2, ![R, 1]⟩ : Shape) 32)
    (h1 : (⟨2, ![R, 1]⟩ : Shape).Broadcasts ⟨2, ![R, C]⟩) (hi : (⟨2, ![1, C]⟩ : Shape).Iotas κ 32 [1])
    (h2 : (⟨2, ![1, C]⟩ : Shape).Broadcasts ⟨2, ![R, C]⟩) (hlt : 1 < 32) (hb : FTy.bf16.bits < FTy.f32.bits)
    (r : Fin R) (a : Fin C) :
    (truncf .bf16 (sitofp (F := Ideal) .f32 (extui 32 (cmpi .eq (broadcastTo ⟨2, ![R, C]⟩ col h1)
        (broadcastTo ⟨2, ![R, C]⟩ (iota κ (⟨2, ![1, C]⟩ : Shape) 32 [1] hi) h2)) hlt)) hb : FVec Ideal ⟨2, ![R, C]⟩ .bf16) (ix2 r a)
      = if col (ix2 r (0 : Fin 1)) = BitVec.ofNat 32 a.val then (1 : EReal) else 0 := by
  rw [truncf_apply, sitofp_apply, extui_apply]
  show (((((IntOp.cmpi .eq (broadcastTo ⟨2, ![R, C]⟩ col h1 (ix2 r a))
      (broadcastTo ⟨2, ![R, C]⟩ (iota κ (⟨2, ![1, C]⟩ : Shape) 32 [1] hi) h2 (ix2 r a))).setWidth 32).toInt : ℝ) : EReal)) = _
  rw [broadcastTo_a1_ab_apply, broadcastTo_1b_ab_apply, iota_row_apply]
  exact Cert.BodyLemmas.onehot_word _ _

end Cert.BodyLemmas

end
-- ==== Proof.KernelPayload.lean ====
/-
  THE KERNEL'S BODY AT ONE ELEMENT.

  At one grid point the body sees: the pair-feature block f (4032 edge rows × 128), the clamped neighbour words as a
  column (4032 × 1), the column that names each row's own atom (4032 × 1), the molecule's atom features x (64 × 128), the
  first layer's weights (384 × 256) and bias, the second layer's (256 × 128) and bias. It never concatenates: it splits
  the weight rows into three bands of 128 and forms

      f · W1[0:128]  +  onehot(neighbour) · (x · W1[128:256])  +  onehot(own atom) · (x · W1[256:384])  +  b1,

  where a one-hot row against a table is the table's row at the index (a sum in which every term but one has the
  factor 0). Read at row r and hidden unit h this is three sums of 128 products: the first layer of the specification
  for the edge that row r is. The rest is the activation, one more matrix product, and the activation again.
-/
import proofs.«419080_j9122510536849_3_alg».proof.Proof.Gen.KernelIdeal.Frame
import proofs.«419080_j9122510536849_3_alg».proof.Proof.EdgeSpec
import proofs.«419080_j9122510536849_3_alg».proof.Proof.BodyLemmas
import proofs.«419080_j9122510536849_3_alg».proof.Proof.LibSegmentSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.EdgeSpec Cert.BodyLemmas

/-! ## The three bands of the weight rows, as the body loads them -/

theorem ld_bandF (w1 : Vec Ideal S384x256 .bf16) (d : Fin 128) (h : Fin 256) :
    (View.ld w1 r0_3 : Vec Ideal S128x256 .bf16) (ix2 d h) = w1 (ix2 (rowF d) h) := by
  show w1 (r0_3.idx (ix2 d h)) = _
  refine congrArg w1 (funext fun a => Fin.ext ?_)
  match a with
  | ⟨0, _⟩ => show 0 + 1 * d.val = d.val; omega
  | ⟨1, _⟩ => show 0 + 1 * h.val = h.val; omega

theorem ld_bandG (w1 : Vec Ideal S384x256 .bf16) (d : Fin 128) (h : Fin 256) :
    (View.ld w1 r0_4 : Vec Ideal S128x256 .bf16) (ix2 d h) = w1 (ix2 (rowG d) h) := by
  show w1 (r0_4.idx (ix2 d h)) = _
  refine congrArg w1 (funext fun a => Fin.ext ?_)
  match a with
  | ⟨0, _⟩ => show 128 + 1 * d.val = 128 + d.val; omega
  | ⟨1, _⟩ => show 0 + 1 * h.val = h.val; omega

theorem ld_bandC (w1 : Vec Ideal S384x256 .bf16) (d : Fin 128) (h : Fin 256) :
    (View.ld w1 r0_5 : Vec Ideal S128x256 .bf16) (ix2 d h) = w1 (ix2 (rowC d) h) := by
  show w1 (r0_5.idx (ix2 d h)) = _
  refine congrArg w1 (funext fun a => Fin.ext ?_)
  match a with
  | ⟨0, _⟩ => show 256 + 1 * d.val = 256 + d.val; omega
  | ⟨1, _⟩ => show 0 + 1 * h.val = h.val; omega

/-! ## The atom features as a 64 × 128 table, and their product with one band -/

theorem pay2_apply (xx : Vec Ideal S1x64x128 .f32) (a : Fin 64) (d : Fin 128) :
    k0_pay2 xx (ix2 a d) = xx (ix3 (0 : Fin 1) a d) := by
  unfold k0_pay2
  exact shapeCast_1ab_ab_apply xx _ a d

/-- x · (one band of W1), at atom a and hidden unit h. -/
theorem xw_apply (xx : Vec Ideal S1x64x128 .f32) (wb : Vec Ideal S128x256 .bf16) (a : Fin 64) (h : Fin 256) :
    (truncf .bf16 (matmul dot_S64x128_S128x256_S64x256_1_0_0_1_n_n none (k0_pay2 xx)
        (shapeCast S128x256 wb shapeCasts_S128x256_S128x256 : FVec Ideal S128x256 .bf16)
        (constant S64x256 .f32 0x00000000#32)) bitsLt_bf16_f32
      : FVec Ideal S64x256 .bf16) (ix2 a h)
      = ∑ d : Fin 128, xx (ix3 (0 : Fin 1) a d) * wb (ix2 d h) := by
  rw [truncf_apply]
  show FloatOps.matmul (DotDims.plain 64 128 256) none (k0_pay2 xx)
    (shapeCast S128x256 wb shapeCasts_S128x256_S128x256 : FVec Ideal S128x256 .bf16)
    (constant ⟨2, ![64, 256]⟩ .f32 0x00000000#32) (ix2 a h) = _
  rw [plain_matmul_zero]
  refine Finset.sum_congr rfl fun d _ => ?_
  rw [shapeCast_self, pay2_apply]

/-! ## A one-hot matrix against a table -/

/-- The one-hot matrix of a column of in-range words, times a 64-row table, at (r, h): the table's row named by row
    r's word. -/
theorem onehot_matmul (col : IVec S4032x1 32) (T : FVec Ideal S64x256 .bf16) (r : Fin 4032) (h : Fin 256)
    (hc : 0 ≤ (col (ix2 r (0 : Fin 1))).toInt ∧ (col (ix2 r (0 : Fin 1))).toInt < ((64 : ℕ) : ℤ)) :
    matmul dot_S4032x64_S64x256_S4032x256_1_0_0_1_n_n none
        (truncf .bf16 (sitofp (F := Ideal) .f32 (extui 32 (cmpi .eq (broadcastTo S4032x64 col broadcasts_S4032x1_S4032x64)
          (broadcastTo S4032x64 (iota .tc S1x64 32 [1] iota_S1x64_d1_w32) broadcasts_S1x64_S4032x64)) natLt_1_32)) bitsLt_bf16_f32)
        T (constant S4032x256 .f32 0x00000000#32) (ix2 r h)
      = T (ix2 (⟨(col (ix2 r (0 : Fin 1))).toInt.toNat, Cert.LibSegmentSum.toNat_lt_of_range hc⟩ : Fin 64) h) := by
  show FloatOps.matmul (DotDims.plain 4032 64 256) none _ T (constant ⟨2, ![4032, 256]⟩ .f32 0x00000000#32) (ix2 r h) = _
  rw [plain_matmul_zero]
  have e : ∀ a : Fin 64,
      (truncf .bf16 (sitofp (F := Ideal) .f32 (extui 32 (cmpi .eq (broadcastTo S4032x64 col broadcasts_S4032x1_S4032x64)
          (broadcastTo S4032x64 (iota .tc S1x64 32 [1] iota_S1x64_d1_w32) broadcasts_S1x64_S4032x64)) natLt_1_32)) bitsLt_bf16_f32
        : FVec Ideal S4032x64 .bf16) (ix2 r a)
        = if col (ix2 r (0 : Fin 1)) = BitVec.ofNat 32 a.val then (1 : EReal) else 0 :=
    fun a => onehot_apply .tc col _ _ _ _ _ r a
  simp only [e]
  exact Cert.LibSegmentSum.onehot_select 64 (by norm_num) (col (ix2 r (0 : Fin 1))) (fun a => T (ix2 a h)) hc

/-! ## The first layer before its bias -/

/-- The pair features against band 0–127 plus the neighbour's features against band 128–255, at row r, unit h. -/
theorem pay3_apply (xn : Vec Ideal S1x4032x1 .i32) (xx : Vec Ideal S1x64x128 .f32) (wF wG : Vec Ideal S128x256 .bf16)
    (xf : Vec Ideal S1x4032x128 .f32) (r : Fin 4032) (h : Fin 256) (ν : Fin 64)
    (hν : (xn (ix3 (0 : Fin 1) r (0 : Fin 1))).toInt = (ν.val : ℤ)) :
    k0_pay3 xn xx wF wG xf (ix2 r h)
      = (∑ d : Fin 128, xf (ix3 (0 : Fin 1) r d) * wF (ix2 d h)) + ∑ d : Fin 128, xx (ix3 (0 : Fin 1) ν d) * wG (ix2 d h) := by
  unfold k0_pay3
  rw [addf_apply]
  have hcol : (shapeCast S4032x1 xn shapeCasts_S1x4032x1_S4032x1 : IVec S4032x1 32) (ix2 r (0 : Fin 1))
      = xn (ix3 (0 : Fin 1) r (0 : Fin 1)) := shapeCast_1ab_ab_apply xn _ r (0 : Fin 1)
  have hc : 0 ≤ ((shapeCast S4032x1 xn shapeCasts_S1x4032x1_S4032x1 : IVec S4032x1 32) (ix2 r (0 : Fin 1))).toInt
      ∧ ((shapeCast S4032x1 xn shapeCasts_S1x4032x1_S4032x1 : IVec S4032x1 32) (ix2 r (0 : Fin 1))).toInt < ((64 : ℕ) : ℤ) := by
    rw [hcol, hν]; have := ν.isLt; omega
  congr 1
  · show FloatOps.matmul (DotDims.plain 4032 128 256) none _ _ (constant ⟨2, ![4032, 256]⟩ .f32 0x00000000#32) (ix2 r h) = _
    rw [plain_matmul_zero]
    refine Finset.sum_congr rfl fun d _ => ?_
    rw [shapeCast_self, truncf_apply]
    exact congrArg (· * wF (ix2 d h)) (shapeCast_1ab_ab_apply xf _ r d)
  · refine (onehot_matmul _ _ r h hc).trans ?_
    rw [xw_apply]
    have hidx : (⟨((shapeCast S4032x1 xn shapeCasts_S1x4032x1_S4032x1 : IVec S4032x1 32) (ix2 r (0 : Fin 1))).toInt.toNat,
        Cert.LibSegmentSum.toNat_lt_of_range hc⟩ : Fin 64) = ν := Fin.ext (by
      show ((shapeCast S4032x1 xn shapeCasts_S1x4032x1_S4032x1 : IVec S4032x1 32) (ix2 r (0 : Fin 1))).toInt.toNat = ν.val
      rw [hcol, hν]; simp)
    rw [hidx]

/-- The atom's own features against band 256–383, at row r, unit h. -/
theorem pay4_apply (xa : Vec Ideal S4032x1 .i32) (xx : Vec Ideal S1x64x128 .f32) (wC : Vec Ideal S128x256 .bf16)
    (r : Fin 4032) (h : Fin 256) (α : Fin 64) (hα : (xa (ix2 r (0 : Fin 1))).toInt = (α.val : ℤ)) :
    k0_pay4 xa xx wC (ix2 r h) = ∑ d : Fin 128, xx (ix3 (0 : Fin 1) α d) * wC (ix2 d h) := by
  unfold k0_pay4
  have hcol : (shapeCast S4032x1 xa shapeCasts_S4032x1_S4032x1 : IVec S4032x1 32) = xa := shapeCast_self xa _
  have hc : 0 ≤ ((shapeCast S4032x1 xa shapeCasts_S4032x1_S4032x1 : IVec S4032x1 32) (ix2 r (0 : Fin 1))).toInt
      ∧ ((shapeCast S4032x1 xa shapeCasts_S4032x1_S4032x1 : IVec S4032x1 32) (ix2 r (0 : Fin 1))).toInt < ((64 : ℕ) : ℤ) := by
    rw [hcol, hα]; have := α.isLt; omega
  refine (onehot_matmul _ _ r h hc).trans ?_
  rw [xw_apply]
  have hidx : (⟨((shapeCast S4032x1 xa shapeCasts_S4032x1_S4032x1 : IVec S4032x1 32) (ix2 r (0 : Fin 1))).toInt.toNat,
      Cert.LibSegmentSum.toNat_lt_of_range hc⟩ : Fin 64) = α := Fin.ext (by
    show ((shapeCast S4032x1 xa shapeCasts_S4032x1_S4032x1 : IVec S4032x1 32) (ix2 r (0 : Fin 1))).toInt.toNat = α.val
    rw [hcol, hα]; simp)
  rw [hidx]

/-! ## Bias, activation, second layer, activation -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The body's softplus on a vector, with its dead self-comparison guard, then the subtraction of the constant: at an
    index it is the shifted softplus of the entry. -/
theorem ssp_vec {s : Shape} (z : FVec Ideal s .f32) (i : s.Idx) :
    (subf (select (cmpf .one (subf z (broadcast s (Scalar.ofBits (F := Ideal) .f32 0x00000000#32)))
            (subf z (broadcast s (Scalar.ofBits (F := Ideal) .f32 0x00000000#32))))
          (addf z (broadcast s (Scalar.ofBits (F := Ideal) .f32 0x00000000#32)))
          (addf (maximumf z (broadcast s (Scalar.ofBits (F := Ideal) .f32 0x00000000#32)))
            (log1p (exp (subf (broadcast s (Scalar.ofBits (F := Ideal) .f32 0x00000000#32))
              (absf (subf z (broadcast s (Scalar.ofBits (F := Ideal) .f32 0x00000000#32)))))))))
        (broadcast s (Scalar.ofBits (F := Ideal) .f32 0x3F317218#32)) : FVec Ideal s .f32) i = ssp (z i) := by
  show Scalar.select (Ideal.cmp .one (z i - Ideal.ofBits .f32 0x00000000#32) (z i - Ideal.ofBits .f32 0x00000000#32))
      (z i + Ideal.ofBits .f32 0x00000000#32)
      (max (z i) (Ideal.ofBits .f32 0x00000000#32) + Ideal.log1p (Ideal.exp (Ideal.ofBits .f32 0x00000000#32
        - max (z i - Ideal.ofBits .f32 0x00000000#32) (-(z i - Ideal.ofBits .f32 0x00000000#32)))))
      - Ideal.ofBits .f32 0x3F317218#32 = _
  rw [Ideal.ofBits_zero_f32]
  exact ssp_of_sub .one (Or.inl rfl) (z i)

/-- From the two partial products of the first layer to the output row: add them and the bias, activate, multiply by
    W2, add its bias, activate. At row r, output feature k. -/
theorem pay5_apply (p3 p4 : FVec Ideal S4032x256 .f32) (b1 : Vec Ideal S256 .f32) (w2 : Vec Ideal S256x128 .bf16)
    (b2 : Vec Ideal S128 .f32) (r : Fin 4032) (k : Fin 128) :
    k0_pay5 p3 p4 b1 w2 b2 (ix2 r k)
      = ssp ((∑ j : Fin 256, ssp ((p3 (ix2 r j) + p4 (ix2 r j)) + b1 (ix1 j)) * w2 (ix2 j k)) + b2 (ix1 k)) := by
  have hb1 : ∀ j : Fin 256, (broadcastTo S4032x256 (shapeCast S1x256 b1 shapeCasts_S256_S1x256) broadcasts_S1x256_S4032x256
      : FVec Ideal S4032x256 .f32) (ix2 r j) = b1 (ix1 j) := fun j => by
    rw [broadcastTo_1b_ab_apply]; exact shapeCast_a_1a_apply b1 _ (0 : Fin 1) j
  have hb2 : (broadcastTo S4032x128 (shapeCast S1x128 b2 shapeCasts_S128_S1x128) broadcasts_S1x128_S4032x128
      : FVec Ideal S4032x128 .f32) (ix2 r k) = b2 (ix1 k) := by
    rw [broadcastTo_1b_ab_apply]; exact shapeCast_a_1a_apply b2 _ (0 : Fin 1) k
  unfold k0_pay5
  refine (ssp_vec _ (ix2 r k)).trans ?_
  refine congrArg ssp ?_
  rw [addf_apply, hb2]
  refine congrArg (· + b2 (ix1 k)) ?_
  show FloatOps.matmul (DotDims.plain 4032 256 128) none _ _ (constant ⟨2, ![4032, 128]⟩ .f32 0x00000000#32) (ix2 r k) = _
  rw [plain_matmul_zero]
  refine Finset.sum_congr rfl fun j _ => ?_
  rw [shapeCast_self, truncf_apply]
  refine congrArg (· * w2 (ix2 j k)) ?_
  refine (ssp_vec _ (ix2 r j)).trans ?_
  rw [addf_apply, addf_apply, hb1]

/-! ## The block the body leaves -/

/-- WHAT THE BODY STORES, at row r and output feature k of its block, from the blocks it loads: the two layers of the
    specification with the neighbour ν and the own atom α that row r's two index words name. -/
theorem out_block_apply (xf : Vec Ideal S1x4032x128 .f32) (xn : Vec Ideal S1x4032x1 .i32) (xa : Vec Ideal S4032x1 .i32)
    (xx : Vec Ideal S1x64x128 .f32) (w1 : Vec Ideal S384x256 .bf16) (b1 : Vec Ideal S256 .f32)
    (w2 : Vec Ideal S256x128 .bf16) (b2 : Vec Ideal S128 .f32) (r : Fin 4032) (k : Fin 128) (ν α : Fin 64)
    (hν : (xn (ix3 (0 : Fin 1) r (0 : Fin 1))).toInt = (ν.val : ℤ)) (hα : (xa (ix2 r (0 : Fin 1))).toInt = (α.val : ℤ)) :
    out0_8 xf xn xa xx w1 b1 w2 b2 (ix3 (0 : Fin 1) r k)
      = ssp ((∑ j : Fin 256, ssp ((((∑ d : Fin 128, xf (ix3 (0 : Fin 1) r d) * w1 (ix2 (rowF d) j))
              + ∑ d : Fin 128, xx (ix3 (0 : Fin 1) ν d) * w1 (ix2 (rowG d) j))
            + ∑ d : Fin 128, xx (ix3 (0 : Fin 1) α d) * w1 (ix2 (rowC d) j)) + b1 (ix1 j)) * w2 (ix2 j k)) + b2 (ix1 k)) := by
  unfold out0_8
  rw [View.canon_unit_zero hz3]
  simp only [View.ld_unit_zero (S := S1x4032x128) hz3, View.ld_unit_zero (S := S1x4032x1) hz3,
    View.ld_unit_zero (S := S4032x1) hz2, View.ld_unit_zero (S := S1x64x128) hz3, View.ld_unit_zero (S := S256) hz1,
    View.ld_unit_zero (S := S256x128) hz2, View.ld_unit_zero (S := S128) hz1]
  unfold k0_pay1
  refine (shapeCast_ab_1ab_apply _ _ (0 : Fin 1) r k).trans ?_
  rw [pay5_apply]
  refine congrArg ssp (congrArg (· + b2 (ix1 k)) (Finset.sum_congr rfl fun j _ => ?_))
  refine congrArg (fun z => ssp z * w2 (ix2 j k)) ?_
  rw [pay3_apply xn xx _ _ xf r j ν hν, pay4_apply xa xx _ r j α hα]
  refine congrArg (· + b1 (ix1 j)) ?_
  refine congrArg₂ (· + ·) (congrArg₂ (· + ·) ?_ ?_) ?_
  · exact Finset.sum_congr rfl fun d _ => congrArg (xf (ix3 (0 : Fin 1) r d) * ·) (ld_bandF w1 d j)
  · exact Finset.sum_congr rfl fun d _ => congrArg (xx (ix3 (0 : Fin 1) ν d) * ·) (ld_bandG w1 d j)
  · exact Finset.sum_congr rfl fun d _ => congrArg (xx (ix3 (0 : Fin 1) α d) * ·) (ld_bandC w1 d j)

end Cert.KernelIdeal.Payload

end
-- ==== Proof.HostPrefix.lean ====
/-
  THE ARRAYS THE KERNEL REGION FINDS: what the host operations before the region leave in the buffers the region's
  windows read, each as a function of the argument arrays.

  The pair features f[b, a, n, ·] and the neighbour words nb[b, a, n] have their two middle axes (64 atoms, 63 neighbour
  slots) flattened into one edge axis of length 4032. Both layouts are row-major, so row r of the edge axis is the edge
  (a, n) = (r / 63, r % 63), since r = a · 63 + n with n < 63. The neighbour words are first wrapped (a negative word has
  64 added) and clamped between 0 and 63, entry by entry. The column of atom numbers is the vector 0 … 63 repeated along
  the 63 slots and flattened the same way, so its row r holds the word r / 63. The two weight matrices pass through a
  change of float format, which on the extended reals is the identity.
-/
import proofs.«419080_j9122510536849_3_alg».proof.Proof.Gen.KernelIdeal.Frame
import proofs.«419080_j9122510536849_3_alg».proof.Proof.EdgeSpec
import Idealize.ShloMosaic.Lib.Pipeline.Value
import Idealize.ShloMosaic.Lib.ValueIdx
import Idealize.ShloMosaic.Lib.StableHlo.Run

noncomputable section

namespace Cert.KernelIdeal.HostPrefix

open Cert.KernelIdeal Cert.KernelIdeal.Gen Idealize.ShloMosaic Idealize.ShloMosaic.ValueIdx Idealize.ShloMosaic.TcCoe

/-! ## The reshapes and the broadcast of the atom numbers, read at an index

Row r of the flattened edge axis is the edge (a, n) = (r / 63, r % 63): both arrays are laid out row-major, and
r = a · 63 + n. -/

section Index
variable {α : Type}

/-- The pair features [64, 64, 63, 128] flattened to [64, 4032, 128]: row r of molecule b is the edge (r / 63, r % 63). -/
theorem cast_edges4 (x : (⟨4, ![64, 64, 63, 128]⟩ : Shape).Idx → α)
    (h : (⟨4, ![64, 64, 63, 128]⟩ : Shape).ShapeCasts ⟨3, ![64, 4032, 128]⟩) (b : Fin 64) (r : Fin 4032) (k : Fin 128) :
    shapeCast ⟨3, ![64, 4032, 128]⟩ x h (ix3 b r k)
      = x (ix4 b (⟨r.val / 63, by omega⟩ : Fin 64) (⟨r.val % 63, by omega⟩ : Fin 63) k) :=
  shapeCast_apply x h _ _ (by
    rw [Shape.rowMajor_val_four, Shape.rowMajor_val_three]
    show ((b.val * 64 + r.val / 63) * 63 + r.val % 63) * 128 + k.val = (b.val * 4032 + r.val) * 128 + k.val
    omega)

/-- The neighbour words [64, 64, 63] flattened to [64, 4032, 1]. -/
theorem cast_edges3 (x : (⟨3, ![64, 64, 63]⟩ : Shape).Idx → α)
    (h : (⟨3, ![64, 64, 63]⟩ : Shape).ShapeCasts ⟨3, ![64, 4032, 1]⟩) (b : Fin 64) (r : Fin 4032) (u : Fin 1) :
    shapeCast ⟨3, ![64, 4032, 1]⟩ x h (ix3 b r u)
      = x (ix3 b (⟨r.val / 63, by omega⟩ : Fin 64) (⟨r.val % 63, by omega⟩ : Fin 63)) :=
  shapeCast_apply x h _ _ (by
    have hu : u.val = 0 := by omega
    rw [Shape.rowMajor_val_three, Shape.rowMajor_val_three]
    show (b.val * 64 + r.val / 63) * 63 + r.val % 63 = (b.val * 4032 + r.val) * 1 + u.val
    omega)

/-- A [64, 63] array flattened to [4032]. -/
theorem cast_rows2 (x : (⟨2, ![64, 63]⟩ : Shape).Idx → α)
    (h : (⟨2, ![64, 63]⟩ : Shape).ShapeCasts ⟨1, ![4032]⟩) (r : Fin 4032) :
    shapeCast ⟨1, ![4032]⟩ x h (ix1 r)
      = x (ix2 (⟨r.val / 63, by omega⟩ : Fin 64) (⟨r.val % 63, by omega⟩ : Fin 63)) :=
  shapeCast_apply x h _ _ (by
    rw [Shape.rowMajor_val_two, Shape.rowMajor_val_one]
    show r.val / 63 * 63 + r.val % 63 = r.val
    omega)

/-- A [4032] vector as a [4032, 1] column. -/
theorem cast_col (x : (⟨1, ![4032]⟩ : Shape).Idx → α)
    (h : (⟨1, ![4032]⟩ : Shape).ShapeCasts ⟨2, ![4032, 1]⟩) (r : Fin 4032) (u : Fin 1) :
    shapeCast ⟨2, ![4032, 1]⟩ x h (ix2 r u) = x (ix1 r) :=
  shapeCast_apply x h _ _ (by
    have hu : u.val = 0 := by omega
    rw [Shape.rowMajor_val_one, Shape.rowMajor_val_two]
    show r.val = r.val * 1 + u.val
    omega)

end Index

/-- The atom numbers 0 … 63 repeated along the 63 neighbour slots: entry (a, n) is the word a. -/
theorem iota_rows (h : (⟨1, ![64]⟩ : Shape).BroadcastsInDim ⟨2, ![64, 63]⟩ ![0]) (a : Fin 64) (n : Fin 63) :
    broadcastInDim ⟨2, ![64, 63]⟩ ![0] h (iotaInDim (⟨1, ![64]⟩ : Shape) 32 0) (ix2 a n) = BitVec.ofNat 32 a.val := rfl

/-! ## The neighbour words: wrapped, then clamped -/

/-- The host's wrap and clamp of an array of index words, operation by operation: the comparison with 0, the sum with
    64, the choice between them, the signed maximum with 0 and the signed minimum with 63, the constants broadcast
    from scalars. -/
def clipArr (nb : S64x64x63.Idx → BitVec 32) : S64x64x63.Idx → BitVec 32 :=
  minsi (broadcastInDim S64x64x63 ![] bcast_S_S64x64x63 (constantI S_ 32 63#32))
    (maxsi (broadcastInDim S64x64x63 ![] bcast_S_S64x64x63 (constantI S_ 32 0#32))
      (select (cmpi .slt nb (broadcastInDim S64x64x63 ![] bcast_S_S64x64x63 (constantI S_ 32 0#32)))
        (addi nb (broadcastInDim S64x64x63 ![] bcast_S_S64x64x63 (constantI S_ 32 64#32))) nb))

/-- At an index every one of those operations is the scalar one on the word there. -/
theorem clipArr_apply (nb : S64x64x63.Idx → BitVec 32) (j : S64x64x63.Idx) :
    clipArr nb j
      = IntOp.minsi 63#32 (IntOp.maxsi 0#32 (Scalar.select (IntOp.cmpi .slt (nb j) 0#32) (IntOp.addi (nb j) 64#32) (nb j))) := rfl

/-- The same, as the specification's clamped neighbour word. -/
theorem clipArr_clipw (nb : S64x64x63.Idx → BitVec 32) (j : S64x64x63.Idx) :
    clipArr nb j = Cert.EdgeSpec.clipw (nb j) := by
  rw [clipArr_apply, Cert.EdgeSpec.wrap_of_select]
  rfl

/-! ## The buffers at the region's entry -/

variable (m : (ℓ : Loc nD τ sig) → Buf (Elt Ideal) ℓ) (c : Dev nD)

/-- The flattened pair features are the reshape of the argument array. -/
theorem e_f : (V m c main_v0 : S64x4032x128.Idx → EReal)
      = shapeCast S64x4032x128 (m ((c : Thread nD τ).loc main_arg2) : S64x64x63x128.Idx → EReal) shapeCasts_S64x64x63x128_S64x4032x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The index column is the reshape of the wrapped and clamped neighbour words. -/
theorem e_nbr : (V m c main_v7 : S64x4032x1.Idx → BitVec 32)
      = shapeCast S64x4032x1 (clipArr (m ((c : Thread nD τ).loc main_arg1) : S64x64x63.Idx → BitVec 32)) shapeCasts_S64x64x63_S64x4032x1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The atom-number column is the vector 0 … 63 repeated along the neighbour slots, flattened, as a column. -/
theorem e_aidx : (V m c main_v11 : S4032x1.Idx → BitVec 32)
      = shapeCast S4032x1 (shapeCast S4032 (broadcastInDim S64x63 ![0] bcast_S64_S64x63_0 (iotaInDim S64 32 0)) shapeCasts_S64x63_S4032) shapeCasts_S4032_S4032x1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Row r of molecule b of the flattened pair features is the pair-feature vector of the edge (r / 63, r % 63). -/
theorem V_f (b : Fin 64) (r : Fin 4032) (k : Fin 128) :
    (V m c main_v0 : S64x4032x128.Idx → EReal) (ix3 b r k)
      = (m ((c : Thread nD τ).loc main_arg2) : S64x64x63x128.Idx → EReal) (ix4 b ⟨r.val / 63, by omega⟩ ⟨r.val % 63, by omega⟩ k) := by
  rw [e_f m c]
  exact cast_edges4 _ _ b r k

/-- Row r of molecule b of the index column is the clamped neighbour word of the edge (r / 63, r % 63). -/
theorem V_nbr (b : Fin 64) (r : Fin 4032) :
    (V m c main_v7 : S64x4032x1.Idx → BitVec 32) (ix3 b r (0 : Fin 1))
      = Cert.EdgeSpec.clipw ((m ((c : Thread nD τ).loc main_arg1) : S64x64x63.Idx → BitVec 32) (ix3 b ⟨r.val / 63, by omega⟩ ⟨r.val % 63, by omega⟩)) := by
  rw [e_nbr m c]
  exact (cast_edges3 _ _ b r 0).trans (clipArr_clipw _ _)

/-- Row r of the atom-number column is the word r / 63: the atom the edge starts from. -/
theorem V_aidx (r : Fin 4032) :
    (V m c main_v11 : S4032x1.Idx → BitVec 32) (ix2 r (0 : Fin 1)) = BitVec.ofNat 32 (r.val / 63) := by
  rw [e_aidx m c]
  refine (cast_col _ _ r 0).trans ((cast_rows2 _ _ r).trans ?_)
  exact iota_rows _ _ _

/-- The first layer's weights pass through a change of format: the identity on the extended reals. -/
theorem V_w1 : (V m c main_v12 : S384x256.Idx → EReal) = (m ((c : Thread nD τ).loc main_arg3) : S384x256.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The second layer's weights likewise. -/
theorem V_w2 : (V m c main_v13 : S256x128.Idx → EReal) = (m ((c : Thread nD τ).loc main_arg5) : S256x128.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

end Cert.KernelIdeal.HostPrefix

end
-- ==== Proof.BlockReads.lean ====
/-
  THE BLOCKS OF THE REGION'S WINDOWS, read off the arrays the region finds.

  The grid has 64 points, one per molecule. At point t the windows over the pair features, the neighbour column, the
  atom features and the result hold the t-th slab along the leading axis of their arrays (a block's coordinate on an
  axis is the block index times the block's extent plus the coordinate inside the block, and on the leading axis the
  index is t and the extent 1); the windows over the atom-number column, the two weight matrices and the two biases
  are the whole array at every point (every block index is 0 and the block is as large as the array). The result's
  64 slabs cover its array: the index (b, r, k) lies in point b's slab.
-/
import proofs.«419080_j9122510536849_3_alg».proof.Proof.Gen.KernelIdeal.Frame
import Idealize.ShloMosaic.Lib.Pipeline.Value
import Idealize.ShloMosaic.Lib.ValueIdx

noncomputable section

namespace Cert.KernelIdeal.BlockReads

open Cert.KernelIdeal Cert.KernelIdeal.Gen Idealize.ShloMosaic Idealize.ShloMosaic.ValueIdx Idealize.ShloMosaic.TcCoe

/-- The molecule a grid point works on: the point's number. -/
def tb (t : Fin cfg0.N) : Fin 64 := ⟨t.val, lt_of_lt_of_eq t.isLt N_0⟩

theorem tb_val (t : Fin cfg0.N) : (tb t).val = t.val := rfl

/-- The block indices of the four moving windows at point t: t on the leading axis, 0 on the others. -/
theorem idx_moving : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_3.index t (0 : Fin 3) = t.val ∧ win0_3.index t (1 : Fin 3) = 0 ∧ win0_3.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- The block indices of the five fixed windows: 0 on every axis at every point. -/
theorem idx_fixed : ∀ t : Fin cfg0.N,
    (win0_2.index t (0 : Fin 2) = 0 ∧ win0_2.index t (1 : Fin 2) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0 :=
  (by decide +kernel : ∀ t : Fin grid0.N, _)

variable (m : (ℓ : Loc nD τ sig) → Buf (Elt Ideal) ℓ) (c : Dev nD)

/-! ## The moving windows -/

/-- Point t's block of pair features is molecule t's slab of the flattened pair features. -/
theorem iblk0_apply (t : Fin cfg0.N) (r : Fin 4032) (d : Fin 128) :
    (iblk m c 0 t : S1x4032x128.Idx → EReal) (ix3 (0 : Fin 1) r d)
      = (V m c main_v0 : S64x4032x128.Idx → EReal) (ix3 (tb t) r d) := by
  obtain ⟨⟨e0, e1, e2⟩, -, -, -⟩ := idx_moving t
  unfold iblk
  rw [View.read_apply]
  show V m c main_v0 _ = V m c main_v0 _
  congr 1
  funext a
  apply Fin.ext
  match a with
  | ⟨0, _⟩ => show win0_0.index t (0 : Fin 3) * 1 + 1 * 0 = t.val; omega
  | ⟨1, _⟩ => show win0_0.index t (1 : Fin 3) * 4032 + 1 * r.val = r.val; omega
  | ⟨2, _⟩ => show win0_0.index t (2 : Fin 3) * 128 + 1 * d.val = d.val; omega

/-- Point t's block of the neighbour column is molecule t's slab of the flattened neighbour words. -/
theorem iblk1_apply (t : Fin cfg0.N) (r : Fin 4032) :
    (iblk m c 1 t : S1x4032x1.Idx → BitVec 32) (ix3 (0 : Fin 1) r (0 : Fin 1))
      = (V m c main_v7 : S64x4032x1.Idx → BitVec 32) (ix3 (tb t) r (0 : Fin 1)) := by
  obtain ⟨-, ⟨e0, e1, e2⟩, -, -⟩ := idx_moving t
  unfold iblk
  rw [View.read_apply]
  show V m c main_v7 _ = V m c main_v7 _
  congr 1
  funext a
  apply Fin.ext
  match a with
  | ⟨0, _⟩ => show win0_1.index t (0 : Fin 3) * 1 + 1 * 0 = t.val; omega
  | ⟨1, _⟩ => show win0_1.index t (1 : Fin 3) * 4032 + 1 * r.val = r.val; omega
  | ⟨2, _⟩ => show win0_1.index t (2 : Fin 3) * 1 + 1 * 0 = 0; omega

/-- Point t's block of atom features is molecule t's 64 atoms. -/
theorem iblk3_apply (t : Fin cfg0.N) (a : Fin 64) (d : Fin 128) :
    (iblk m c 3 t : S1x64x128.Idx → EReal) (ix3 (0 : Fin 1) a d)
      = (V m c main_arg0 : S64x64x128.Idx → EReal) (ix3 (tb t) a d) := by
  obtain ⟨-, -, ⟨e0, e1, e2⟩, -⟩ := idx_moving t
  unfold iblk
  rw [View.read_apply]
  show V m c main_arg0 _ = V m c main_arg0 _
  congr 1
  funext x
  apply Fin.ext
  match x with
  | ⟨0, _⟩ => show win0_3.index t (0 : Fin 3) * 1 + 1 * 0 = t.val; omega
  | ⟨1, _⟩ => show win0_3.index t (1 : Fin 3) * 64 + 1 * a.val = a.val; omega
  | ⟨2, _⟩ => show win0_3.index t (2 : Fin 3) * 128 + 1 * d.val = d.val; omega

/-! ## The fixed windows: the whole array at every point -/

/-- The atom-number column. -/
theorem iblk2_eq (t : Fin cfg0.N) : (iblk m c 2 t : S4032x1.Idx → BitVec 32) = V m c main_v11 := by
  obtain ⟨⟨e0, e1⟩, -, -, -, -⟩ := idx_fixed t
  funext j
  unfold iblk
  rw [View.read_apply]
  show V m c main_v11 _ = V m c main_v11 j
  congr 1
  funext a
  apply Fin.ext
  match a with
  | ⟨0, _⟩ => show win0_2.index t (0 : Fin 2) * 4032 + 1 * (j 0).val = (j 0).val; omega
  | ⟨1, _⟩ => show win0_2.index t (1 : Fin 2) * 1 + 1 * (j 1).val = (j 1).val; omega

/-- The first layer's weights. -/
theorem iblk4_eq (t : Fin cfg0.N) : (iblk m c 4 t : S384x256.Idx → EReal) = V m c main_v12 := by
  obtain ⟨-, ⟨e0, e1⟩, -, -, -⟩ := idx_fixed t
  funext j
  unfold iblk
  rw [View.read_apply]
  show V m c main_v12 _ = V m c main_v12 j
  congr 1
  funext a
  apply Fin.ext
  match a with
  | ⟨0, _⟩ => show win0_4.index t (0 : Fin 2) * 384 + 1 * (j 0).val = (j 0).val; omega
  | ⟨1, _⟩ => show win0_4.index t (1 : Fin 2) * 256 + 1 * (j 1).val = (j 1).val; omega

/-- The first layer's bias. -/
theorem iblk5_eq (t : Fin cfg0.N) : (iblk m c 5 t : S256.Idx → EReal) = V m c main_arg4 := by
  obtain ⟨-, -, e0, -, -⟩ := idx_fixed t
  funext j
  unfold iblk
  rw [View.read_apply]
  show V m c main_arg4 _ = V m c main_arg4 j
  congr 1
  funext a
  apply Fin.ext
  match a with
  | ⟨0, _⟩ => show win0_5.index t (0 : Fin 1) * 256 + 1 * (j 0).val = (j 0).val; omega

/-- The second layer's weights. -/
theorem iblk6_eq (t : Fin cfg0.N) : (iblk m c 6 t : S256x128.Idx → EReal) = V m c main_v13 := by
  obtain ⟨-, -, -, ⟨e0, e1⟩, -⟩ := idx_fixed t
  funext j
  unfold iblk
  rw [View.read_apply]
  show V m c main_v13 _ = V m c main_v13 j
  congr 1
  funext a
  apply Fin.ext
  match a with
  | ⟨0, _⟩ => show win0_6.index t (0 : Fin 2) * 256 + 1 * (j 0).val = (j 0).val; omega
  | ⟨1, _⟩ => show win0_6.index t (1 : Fin 2) * 128 + 1 * (j 1).val = (j 1).val; omega

/-- The second layer's bias. -/
theorem iblk7_eq (t : Fin cfg0.N) : (iblk m c 7 t : S128.Idx → EReal) = V m c main_arg6 := by
  obtain ⟨-, -, -, -, e0⟩ := idx_fixed t
  funext j
  unfold iblk
  rw [View.read_apply]
  show V m c main_arg6 _ = V m c main_arg6 j
  congr 1
  funext a
  apply Fin.ext
  match a with
  | ⟨0, _⟩ => show win0_7.index t (0 : Fin 1) * 128 + 1 * (j 0).val = (j 0).val; omega

/-! ## The result's blocks -/

/-- Row r, feature k of point t's result block sits at (t, r, k) of the result array. -/
theorem emb8 (t : Fin cfg0.N) (r : Fin 4032) (k : Fin 128) :
    ((cfg0.win 8).blk t).view.emb (ix3 (0 : Fin 1) r k) = (ix3 (tb t) r k : S64x4032x128.Idx) := by
  obtain ⟨-, -, -, ⟨e0, e1, e2⟩⟩ := idx_moving t
  funext a
  apply Fin.ext
  match a with
  | ⟨0, _⟩ => show win0_8.index t (0 : Fin 3) * 1 + 1 * 0 = t.val; omega
  | ⟨1, _⟩ => show win0_8.index t (1 : Fin 3) * 4032 + 1 * r.val = r.val; omega
  | ⟨2, _⟩ => show win0_8.index t (2 : Fin 3) * 128 + 1 * k.val = k.val; omega

/-- An index of the result array is in point t's block iff each coordinate is in the block's range on its axis. -/
theorem mem_blk8 (t : Fin cfg0.N) (i : S64x4032x128.Idx) :
    i ∈ ((cfg0.win 8).blk t).view.set ↔ ∀ a : Fin 3, win0_8.index t a * S1x4032x128.size a ≤ (i a).val ∧ (i a).val < win0_8.index t a * S1x4032x128.size a + S1x4032x128.size a := by
  show i ∈ ((View.whole main_v14).slice (win0_8.rect t)).set ↔ _
  rw [View.set_slice_whole, Rect.mem_set_unit]
  exact Iff.rfl

/-- The 64 result blocks cover the result array: (b, r, k) lies in point b's block, which is written back. -/
theorem cover8 : ∀ i : S64x4032x128.Idx, ∃ t : Fin cfg0.N, (cfg0.win 8).flush t = true ∧ i ∈ ((cfg0.win 8).blk t).view.set := by
  intro i
  have h0 : (i 0).val < 64 := (i 0).isLt
  have h1 : (i 1).val < 4032 := (i 1).isLt
  have h2 : (i 2).val < 128 := (i 2).isLt
  let t : Fin cfg0.N := ⟨(i 0).val, lt_of_lt_of_eq h0 N_0.symm⟩
  have ht : t.val = (i 0).val := rfl
  obtain ⟨-, -, -, ⟨e0, e1, e2⟩⟩ := idx_moving t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 4032 ≤ (i 1).val ∧ (i 1).val < win0_8.index t (1 : Fin 3) * 4032 + 4032; omega
  | ⟨2, _⟩ => show win0_8.index t (2 : Fin 3) * 128 ≤ (i 2).val ∧ (i 2).val < win0_8.index t (2 : Fin 3) * 128 + 128; omega

end Cert.KernelIdeal.BlockReads

end
-- ==== Proof.HostTail.lean ====
/-
  THE HOST LINE AFTER THE REGION.

  After its one region the kernel program runs a single host operation: the region's result array, of shape
  [64, 4032, 128], is re-read at the shape [64, 64, 63, 128] (a reshape keeps the row-major order of the elements).
  The result buffer therefore ends holding the reshape of what the output window's array holds when the region ends, and
  the entry (b, a, n, k) of the reshape is the array's entry (b, 63 a + n, k):
  ((64 b + a) 63 + n) 128 + k = (4032 b + (63 a + n)) 128 + k.
-/
import proofs.«419080_j9122510536849_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Pipeline.FrameSuffix

noncomputable section

namespace Cert.KernelIdeal.HostTail

open Cert.KernelIdeal Cert.KernelIdeal.Gen Idealize.ShloMosaic Idealize.ShloMosaic.TcCoe Idealize.ShloMosaic.ValueIdx
open Idealize.SL.Sem

variable {F : FTy → Type} [FloatOps F] (m : (ℓ : Loc nD τ sig) → Buf (Elt F) ℓ)

/-- The reshape [64, 4032, 128] → [64, 64, 63, 128] read at (b, a, n, k): the operand at (b, 63 a + n, k), the index with
    the same row-major position. -/
theorem reshape_out {α : Type} (G : S64x4032x128.Idx → α) (b a : Fin 64) (n : Fin 63) (k : Fin 128) :
    shapeCast S64x64x63x128 G shapeCasts_S64x4032x128_S64x64x63x128 (ix4 b a n k)
      = G (ix3 b (⟨a.val * 63 + n.val, by omega⟩ : Fin 4032) k) :=
  shapeCast_apply G _ _ _ (by
    rw [Shape.rowMajor_val_three, Shape.rowMajor_val_four]
    show (b.val * 4032 + (a.val * 63 + n.val)) * 128 + k.val = ((b.val * 64 + a.val) * 63 + n.val) * 128 + k.val
    omega)

/-- The result buffer is no window's array and is not scoped: it bypasses the region. -/
theorem rest_v15 : main_v15 ∈ Pipeline.restRefs sig (cfgs 0).spec :=
  Pipeline.mem_restRefs_of main_v15 (by decide) (by decide)

/-- After the host line the result buffer holds the reshape of the output window's array as the region leaves it: the
    line's one operation reads the array's buffer, which the region's exit contents hold at the window's final array. -/
theorem tail_v15 (c : Dev nD) :
    Pipeline.afterTail₀ cfgs (dats m) 0 (V0 m) [hostOps1] c main_v15
      = shapeCast S64x64x63x128 ((dats m 0 c).arrAt 8 cfg0.N) shapeCasts_S64x4032x128_S64x64x63x128 := by
  unfold Pipeline.afterTail₀
  show StableHlo.after hostOps1 _ (Proc.devRef .tc main_v15) = _
  after_results
  rw [Pipeline.withArrays_arr spec0 launch0.win.arr_inj c _ _ 8]
  rfl

end Cert.KernelIdeal.HostTail

end
-- ==== Proof.KernelValue.lean ====
/-
  FROM BLOCKS TO THE RESULT ARRAY.

  Grid point t handles molecule t: it writes back one block of 4032 rows × 128 features, row r being the edge from
  atom r / 63 to its (r % 63)-th neighbour. Every entry of that block is the specification's value for that edge
  (the body read at one element, with the blocks it loads read off the arrays the region finds). The 64 blocks tile the
  output window's array, so the array ends holding, at (b, r, k), the value for edge (b, r / 63, r % 63) at feature k; the
  host line after the region only re-labels row r = a · 63 + n as the pair (a, n), which gives the specification's array.
-/
import proofs.«419080_j9122510536849_3_alg».proof.Proof.Gen.KernelIdeal.Frame
import proofs.«419080_j9122510536849_3_alg».proof.Proof.EdgeSpec
import proofs.«419080_j9122510536849_3_alg».proof.Proof.LibSegmentSum
import proofs.«419080_j9122510536849_3_alg».proof.Proof.KernelPayload
import proofs.«419080_j9122510536849_3_alg».proof.Proof.HostPrefix
import proofs.«419080_j9122510536849_3_alg».proof.Proof.BlockReads
import proofs.«419080_j9122510536849_3_alg».proof.Proof.HostTail
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx Cert.EdgeSpec
open Cert.KernelIdeal.HostPrefix Cert.KernelIdeal.BlockReads Cert.KernelIdeal.HostTail Cert.KernelIdeal.Payload

variable (m : (ℓ : Loc nD τ sig) → Buf (Elt Ideal) ℓ) (ρ : Dev nD → PrngReg)

/-! ## The argument arrays, by name -/

abbrev aX (c : Dev nD) : S64x64x128.Idx → EReal := m ((c : Thread nD τ).loc main_arg0)
abbrev aNb (c : Dev nD) : S64x64x63.Idx → BitVec 32 := m ((c : Thread nD τ).loc main_arg1)
abbrev aF (c : Dev nD) : S64x64x63x128.Idx → EReal := m ((c : Thread nD τ).loc main_arg2)
abbrev aW1 (c : Dev nD) : S384x256.Idx → EReal := m ((c : Thread nD τ).loc main_arg3)
abbrev aB1 (c : Dev nD) : S256.Idx → EReal := m ((c : Thread nD τ).loc main_arg4)
abbrev aW2 (c : Dev nD) : S256x128.Idx → EReal := m ((c : Thread nD τ).loc main_arg5)
abbrev aB2 (c : Dev nD) : S128.Idx → EReal := m ((c : Thread nD τ).loc main_arg6)

/-- The atom and the neighbour slot that row r of a molecule's 4032 edge rows stands for. -/
def rowAtom (r : Fin 4032) : Fin 64 := ⟨r.val / 63, by have := r.isLt; omega⟩
def rowSlot (r : Fin 4032) : Fin 63 := ⟨r.val % 63, Nat.mod_lt _ (by norm_num)⟩

/-- The output window's array as the kernel fills it: at (b, r, k) the specification's value for the edge that row r is. -/
def rowsOut (c : Dev nD) : S64x4032x128.Idx → EReal := fun i =>
  outAt (aX m c) (aNb m c) (aF m c) (aW1 m c) (aB1 m c) (aW2 m c) (aB2 m c) (i 0) (rowAtom (i 1)) (rowSlot (i 1)) (i 2)

theorem rowsOut_ix3 (c : Dev nD) (b : Fin 64) (r : Fin 4032) (k : Fin 128) :
    rowsOut m c (ix3 b r k)
      = outAt (aX m c) (aNb m c) (aF m c) (aW1 m c) (aB1 m c) (aW2 m c) (aB2 m c) b (rowAtom r) (rowSlot r) k := rfl

/-! ## What point t writes back -/

/-- WHAT POINT t WRITES BACK is block t of that array. -/
theorem flushed_eq (c : Dev nD) (t : Fin cfg0.N) :
    (dats m 0 c).flushed 8 t = ((cfg0.win 8).blk t).view.read (Elt Ideal) (rowsOut m c) := by
  show (cfg0.win 8).cut (grid0.coords t) ((dats m 0 c).after 8 t) = _
  rw [after0_8]
  funext j
  obtain ⟨u, r, k, rfl⟩ : ∃ (u : Fin 1) (r : Fin 4032) (k : Fin 128), j = ix3 u r k := ⟨j 0, j 1, j 2, eq_ix3 j⟩
  obtain rfl : u = 0 := Subsingleton.elim _ _
  show out0_8 (iblk m c 0 t) (iblk m c 1 t) (iblk m c 2 t) (iblk m c 3 t) (iblk m c 4 t) (iblk m c 5 t) (iblk m c 6 t)
      (iblk m c 7 t) (ix3 (0 : Fin 1) r k) = rowsOut m c (((cfg0.win 8).blk t).view.emb (ix3 (0 : Fin 1) r k))
  rw [emb8, rowsOut_ix3]
  -- the two index words of row r: the clamped neighbour word, and the number of the row's own atom
  have hν : ((iblk m c 1 t : S1x4032x1.Idx → BitVec 32) (ix3 (0 : Fin 1) r (0 : Fin 1))).toInt
      = ((nbr (aNb m c (ix3 (tb t) (rowAtom r) (rowSlot r)))).val : ℤ) := by
    rw [iblk1_apply, V_nbr]; exact clipw_toInt _
  have hα : ((iblk m c 2 t : S4032x1.Idx → BitVec 32) (ix2 r (0 : Fin 1))).toInt = ((rowAtom r).val : ℤ) := by
    rw [iblk2_eq, V_aidx]
    exact Cert.LibSegmentSum.toInt_ofNat_small _ (by have := r.isLt; omega)
  refine (out_block_apply (iblk m c 0 t) (iblk m c 1 t) (iblk m c 2 t) (iblk m c 3 t) (iblk m c 4 t) (iblk m c 5 t)
    (iblk m c 6 t) (iblk m c 7 t) r k _ _ hν hα).trans ?_
  unfold outAt pre1
  simp only [iblk0_apply, iblk3_apply, iblk4_eq, iblk5_eq, iblk6_eq, iblk7_eq]
  rw [V_w1 m c, V_w2 m c, V_main_arg0 m c, V_main_arg4 m c, V_main_arg6 m c]
  simp only [V_f m c (tb t) r]
  rfl

/-! ## The array after the run, and the result after the host's re-labelling -/

/-- The output window's array ends holding `rowsOut`: the 64 blocks tile it. -/
theorem final8 (c : Dev nD) : (dats m 0 c).arrAt 8 cfg0.N = rowsOut m c :=
  (dats m 0 c).arrAt_eq_of_cover 8 (rowsOut m c) (fun t _ => flushed_eq m c t) cover8

/-- Row a · 63 + n is the edge (a, n). -/
theorem rowAtom_mk (a : Fin 64) (n : Fin 63) (h : a.val * 63 + n.val < 4032) : rowAtom ⟨a.val * 63 + n.val, h⟩ = a :=
  Fin.ext (by show (a.val * 63 + n.val) / 63 = a.val; have := n.isLt; omega)
theorem rowSlot_mk (a : Fin 64) (n : Fin 63) (h : a.val * 63 + n.val < 4032) : rowSlot ⟨a.val * 63 + n.val, h⟩ = n :=
  Fin.ext (by show (a.val * 63 + n.val) % 63 = n.val; have := n.isLt; omega)

/-- The result buffer after the whole program: the specification's array of the argument arrays. -/
theorem result_eq (c : Dev nD) :
    Pipeline.afterTail₀ cfgs (dats m) 0 (V0 m) [hostOps1] c main_v15
      = out (aX m c) (aNb m c) (aF m c) (aW1 m c) (aB1 m c) (aW2 m c) (aB2 m c) := by
  rw [tail_v15, final8]
  funext i
  obtain ⟨b, a, n, k, rfl⟩ : ∃ (b a : Fin 64) (n : Fin 63) (k : Fin 128), i = ix4 b a n k :=
    ⟨i 0, i 1, i 2, i 3, eq_ix4 i⟩
  rw [reshape_out, rowsOut_ix3, rowAtom_mk, rowSlot_mk]
  rfl

/-! ## The run, read -/

/-- Every weakly fair execution of the kernel program ends with its result buffer at the specification's array of the
    argument arrays, and the argument arrays unchanged. -/
theorem run : θ_run defs (onTc (τ := τ) (main (F := Ideal))) ⟨m, fun _ => 0, ρ⟩ fun r => ∀ c : Dev nD,
      r.2.mem ((c.tc : Thread nD τ).loc main_v15) = out (aX m c) (aNb m c) (aF m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v15 rest_v15).trans (result_eq m c),
      ((h c).1 3).trans (((dats m 0 c).arrAt_in 3 rfl _).trans ((A_eq m c 3).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c),
      ((h c).1 7).trans (((dats m 0 c).arrAt_in 7 rfl _).trans ((A_eq m c 7).trans (V_main_arg6 m c)))⟩)
    (run_main m ρ)

end Cert.KernelIdeal.KValue

end
-- ==== Proof.lean ====
/-
  An edge-update layer of a message-passing network, as a Pallas kernel, against its jnp reference: over the extended
  reals the two programs compute the same array.

  For every edge (b, a, n) — molecule b, atom a, its n-th neighbour — both form the first dense layer of the
  concatenation [pair features f[b, a, n, ·] | features of the neighbour x[b, ν, ·] | features of the atom x[b, a, ·]],
  apply the shifted softplus, form the second dense layer and apply the shifted softplus again. The neighbour ν is the
  index word nb[b, a, n] with a negative word counted from the end and the result clamped into 0 … 63: the reference does
  this by array indexing (a gather whose start indices are clamped), the kernel by wrapping and clipping the words on
  the host and multiplying with a one-hot matrix in the body. The reference multiplies the concatenation by the whole
  384 × 256 weight matrix; the kernel never concatenates and adds three products against the three bands of 128 weight
  rows. A sum of 384 terms is the sum of its three bands, a one-hot row times a table is the table's row, and changes
  of float format are the identity on the extended reals; no law used needs the inputs to be finite, so the
  precondition is not opened.

  The specification is Proof/EdgeSpec.lean (one function of the seven argument arrays); Proof/RefValue.lean shows the
  reference's last stage is it, Proof/KernelPayload.lean, Proof/HostPrefix.lean, Proof/BlockReads.lean,
  Proof/KernelValue.lean and Proof/HostTail.lean that the kernel program's result buffer ends holding it. The ideal
  pass rewrote nothing, so the kernel's idealization is its own text read over the extended reals.
-/
import proofs.«419080_j9122510536849_3_alg».proof.Defs
import proofs.«419080_j9122510536849_3_alg».proof.Proof.Gen.Kernel
import proofs.«419080_j9122510536849_3_alg».proof.Proof.Gen.Kernel.Skeleton
import proofs.«419080_j9122510536849_3_alg».proof.Proof.Gen.Kernel.Launch
import proofs.«419080_j9122510536849_3_alg».proof.Proof.Gen.Kernel.Points
import proofs.«419080_j9122510536849_3_alg».proof.Proof.Gen.Kernel.Frame
import proofs.«419080_j9122510536849_3_alg».proof.Proof.Gen.KernelIdeal
import proofs.«419080_j9122510536849_3_alg».proof.Proof.Gen.KernelIdeal.Skeleton
import proofs.«419080_j9122510536849_3_alg».proof.Proof.Gen.KernelIdeal.Launch
import proofs.«419080_j9122510536849_3_alg».proof.Proof.Gen.KernelIdeal.Points
import proofs.«419080_j9122510536849_3_alg».proof.Proof.Gen.KernelIdeal.Frame
import proofs.«419080_j9122510536849_3_alg».proof.Proof.Gen.ReferenceIdeal
import proofs.«419080_j9122510536849_3_alg».proof.Proof.RefRun
import proofs.«419080_j9122510536849_3_alg».proof.Proof.RefRead
import proofs.«419080_j9122510536849_3_alg».proof.Proof.Gen.Pre_finite_inputs
import proofs.«419080_j9122510536849_3_alg».proof.Proof.EdgeSpec
import proofs.«419080_j9122510536849_3_alg».proof.Proof.RefValue
import proofs.«419080_j9122510536849_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the same program read over the extended reals. -/
theorem frame_ki : Cert.frame_KernelIdeal := fun m ρ _ => Cert.KernelIdeal.Gen.frame m ρ

/-- The reference runs and keeps its arguments: its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with their result at the specification's array of
    those arguments: the kernel program by the blocks its grid points write back and the host's re-labelling of the
    rows, the reference by its stages read one at a time. -/
theorem algebraic : Cert.algebraic_KernelIdeal_ReferenceIdeal := by
  intro m ρ m' ρ' _ hagree
  refine ⟨fun c => Cert.EdgeSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v33_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
